-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x640000 : Shape := ⟨2, ![2, 640000]⟩
abbrev S256x128 : Shape := ⟨2, ![256, 128]⟩
abbrev S128 : Shape := ⟨1, ![128]⟩
abbrev S_ : Shape := ⟨0, ![]⟩
abbrev S1x640000 : Shape := ⟨2, ![1, 640000]⟩
abbrev S640000 : Shape := ⟨1, ![640000]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part1 {F : FTy → Type} [FloatOps F] (main_arg1 : IVec S2x640000 32) (main_v13 : IVec S_ 1) (main_v15 : IVec S640000 32) (main_v16 : IVec S640000 32) : IVec S_ 1 :=
  let main_v17 : IVec S640000 1 := cmpi .sge main_v15 main_v16
  let main_v18 : IVec S1x640000 32 := (extractStridedSlice S1x640000 ![1, 0] · slices_S2x640000_S1x640000_1_0) main_arg1
  let main_v19 : IVec S640000 32 := shapeCast S640000 main_v18 shapeCasts_S1x640000_S640000
  let main_c_5 : IVec S_ 32 := constantI S_ 32 20000#32
  let main_v20 : IVec S640000 32 := broadcastInDim S640000 ![] bcast_S_S640000 main_c_5
  let main_v21 : IVec S640000 1 := cmpi .slt main_v19 main_v20
  let main_v22 : IVec S640000 1 := andi main_v17 main_v21
  let main_c_6 : IVec S_ 1 := constantI S_ 1 1#1
  let main_v23 : IVec S_ 1 := (fun x v => Host.reduce IntOp.andi x v reducesTo_S640000_S_d0 h_S_) main_v22 main_c_6
  let main_v24 : IVec S_ 1 := andi main_v13 main_v23
  main_v24

def fn {F : FTy → Type} [FloatOps F] (main_arg0 : FVec F S20000x256 .f32) (main_arg1 : IVec S2x640000 32) (main_arg2 : FVec F S256x128 .f32) (main_arg3 : FVec F S128 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : IVec S1x640000 32 := (extractStridedSlice S1x640000 ![1, 0] · slices_S2x640000_S1x640000_1_0) main_arg1
  let main_v15 : IVec S640000 32 := shapeCast S640000 main_v14 shapeCasts_S1x640000_S640000
  let main_c_4 : IVec S_ 32 := constantI S_ 32 0#32
  let main_v16 : IVec S640000 32 := broadcastInDim S640000 ![] bcast_S_S640000 main_c_4
  fn_part1 (F := F) main_arg1 main_v13 main_v15 main_v16
-- ==== Kernel.lean ====
abbrev S20000x256 : Shape := ⟨2, ![20000, 256]⟩
abbrev S2x640000 : Shape := ⟨2, ![2, 640000]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S20480x256 : Shape := ⟨2, ![20480, 256]⟩
abbrev S20480x128 : Shape := ⟨2, ![20480, 128]⟩
abbrev S2048x256 : Shape := ⟨2, ![2048, 256]⟩
abbrev S2048x128 : Shape := ⟨2, ![2048, 128]⟩
abbrev S2x20480x128 : Shape := ⟨3, ![2, 20480, 128]⟩
abbrev S512 : Shape := ⟨1, ![512]⟩
abbrev S1x20480x128 : Shape := ⟨3, ![1, 20480, 128]⟩
abbrev S512x128 : Shape := ⟨2, ![512, 128]⟩
abbrev S512x1 : Shape := ⟨2, ![512, 1]⟩
abbrev S512x1024 : Shape := ⟨2, ![512, 1024]⟩
abbrev S1024x128 : Shape := ⟨2, ![1024, 128]⟩
abbrev S1x1024x128 : Shape := ⟨3, ![1, 1024, 128]⟩
abbrev S20000x128 : Shape := ⟨2, ![20000, 128]⟩
abbrev S1x128 : Shape := ⟨2, ![1, 128]⟩

abbrev nBuf : Space → Nat
  | .hbm => 25
  | .vmem => 12
  | .smem => 0
  | _ => 0

abbrev bufTy : (tb : Table) → Fin (tcTables nBuf tb) → BufTy
  | .hbm, ⟨0, _⟩ => ⟨S20000x256, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S_, .f32⟩
  | .hbm, ⟨10, _⟩ => ⟨S20480x256, .f32⟩
  | .hbm, ⟨11, _⟩ => ⟨S20480x128, .f32⟩
  | .hbm, ⟨12, _⟩ => ⟨S2x20480x128, .f32⟩
  | .hbm, ⟨13, _⟩ => ⟨S1x20480x128, .f32⟩
  | .hbm, ⟨14, _⟩ => ⟨S20480x128, .f32⟩
  | .hbm, ⟨15, _⟩ => ⟨S1x20480x128, .f32⟩
  | .hbm, ⟨16, _⟩ => ⟨S20480x128, .f32⟩
  | .hbm, ⟨17, _⟩ => ⟨S20480x128, .f32⟩
  | .hbm, ⟨18, _⟩ => ⟨S20000x128, .f32⟩
  | .hbm, ⟨19, _⟩ => ⟨S1x128, .f32⟩
  | .hbm, ⟨20, _⟩ => ⟨S20000x128, .f32⟩
  | .hbm, ⟨21, _⟩ => ⟨S20000x128, .f32⟩
  | .hbm, ⟨22, _⟩ => ⟨S_, .f32⟩
  | .hbm, ⟨23, _⟩ => ⟨S20000x128, .f32⟩
  | .hbm, ⟨24, _⟩ => ⟨S20000x128, .f32⟩
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S2048x128, .f32⟩
  | .local _ .vmem, ⟨4, _⟩ => ⟨S2048x128, .f32⟩
  | .local _ .vmem, ⟨5, _⟩ => ⟨S512, .i32⟩
  | .local _ .vmem, ⟨6, _⟩ => ⟨S512, .i32⟩
  | .local _ .vmem, ⟨7, _⟩ => ⟨S512, .i32⟩
  | .local _ .vmem, ⟨8, _⟩ => ⟨S512, .i32⟩
  | .local _ .vmem, ⟨9, _⟩ => ⟨S20480x128, .f32⟩
  | .local _ .vmem, ⟨10, _⟩ => ⟨S1x20480x128, .f32⟩
  | .local _ .vmem, ⟨11, _⟩ => ⟨S512x128, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 625], ![false, false]⟩

@[reducible] def k1_t1_loop : Scf.Loop 32 :=
  let c0_i32_4 : BitVec 32 := 0#32
  let c20_i32 : BitVec 32 := 20#32
  let v14 : BitVec 32 := Scalar.addi c0_i32_4 c20_i32
  let c1_i32 : BitVec 32 := 1#32
  ⟨c0_i32_4, v14, c1_i32⟩
def k1_mult1 (k1_t1 : Fin k1_t1_loop.trips) : BitVec 32 :=
  let c0_i32_13 : BitVec 32 := 0#32
  let c0_i32_4 : BitVec 32 := 0#32
  let c1_i32 : BitVec 32 := 1#32
  let arg7 : BitVec 32 := Scf.iv c0_i32_4 c1_i32 k1_t1
  let c1_i32_12 : BitVec 32 := 1#32
  let v18 : BitVec 32 := Scalar.muli arg7 c1_i32_12
  let v19 : BitVec 32 := Scalar.addi c0_i32_13 v18
  let c1024_i32 : BitVec 32 := 1024#32
  let v20 : BitVec 32 := Scalar.muli v19 c1024_i32
  v20
def k1_off1 (k1_t1 : Fin k1_t1_loop.trips) : Fin 2 → Nat :=
  let c0_i32_13 : BitVec 32 := 0#32
  let c0_i32_4 : BitVec 32 := 0#32
  let c1_i32 : BitVec 32 := 1#32
  let arg7 : BitVec 32 := Scf.iv c0_i32_4 c1_i32 k1_t1
  let c1_i32_12 : BitVec 32 := 1#32
  let v18 : BitVec 32 := Scalar.muli arg7 c1_i32_12
  let v19 : BitVec 32 := Scalar.addi c0_i32_13 v18
  let c1024_i32 : BitVec 32 := 1024#32
  let v20 : BitVec 32 := Scalar.muli v19 c1024_i32
  let v21 : BitVec 32 := v20
  let v22 : Index := Scalar.indexCast v21
  let c0_14 : Index := 0#32
  ![v22.toNat, 0]
@[reducible] def k1_t2_loop : Scf.Loop 32 :=
  let c0_i32_8 : BitVec 32 := 0#32
  let c20_i32_9 : BitVec 32 := 20#32
  let v17 : BitVec 32 := Scalar.addi c0_i32_8 c20_i32_9
  let c1_i32_10 : BitVec 32 := 1#32
  ⟨c0_i32_8, v17, c1_i32_10⟩
def k1_mult2 (k1_t2 : Fin k1_t2_loop.trips) : BitVec 32 :=
  let c0_i32_13 : BitVec 32 := 0#32
  let c0_i32_8 : BitVec 32 := 0#32
  let c1_i32_10 : BitVec 32 := 1#32
  let arg7 : BitVec 32 := Scf.iv c0_i32_8 c1_i32_10 k1_t2
  let c1_i32_12 : BitVec 32 := 1#32
  let v18 : BitVec 32 := Scalar.muli arg7 c1_i32_12
  let v19 : BitVec 32 := Scalar.addi c0_i32_13 v18
  let c1024_i32 : BitVec 32 := 1024#32
  let v20 : BitVec 32 := Scalar.muli v19 c1024_i32
  v20
def k1_off2 (k1_t2 : Fin k1_t2_loop.trips) : Fin 3 → Nat :=
  let c0_15 : Index := 0#32
  let c0_i32_13 : BitVec 32 := 0#32
  let c0_i32_8 : BitVec 32 := 0#32
  let c1_i32_10 : BitVec 32 := 1#32
  let arg7 : BitVec 32 := Scf.iv c0_i32_8 c1_i32_10 k1_t2
  let c1_i32_12 : BitVec 32 := 1#32
  let v18 : BitVec 32 := Scalar.muli arg7 c1_i32_12
  let v19 : BitVec 32 := Scalar.addi c0_i32_13 v18
  let c1024_i32 : BitVec 32 := 1024#32
  let v20 : BitVec 32 := Scalar.muli v19 c1024_i32
  let v21 : BitVec 32 := v20
  let v30 : Index := Scalar.indexCast v21
  let c0_16 : Index := 0#32
  ![0, v30.toNat, 0]
def cc1_transform_0 (i : grid1.Coords) : Fin 1 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  ![v1.toNat]

def cc1_transform_1 (i : grid1.Coords) : Fin 1 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  ![v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S20480x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x20480x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  pads_S20000x256_S20480x256_04800_000 : S20000x256.Pads (![0, 0] : Fin 2 → Nat) ![480, 0] ![0, 0] S20480x256
  h_S_ : 0 < S_.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  inb_S1x20480x128_S1x20480x128_0_0_0 : ∀ a, (![0, 0, 0] : Fin 3 → Nat) a + S1x20480x128.size a ≤ S1x20480x128.size a
  h_S1x20480x128 : 0 < S1x20480x128.numel
  shapeCasts_S1x20480x128_S20480x128 : S1x20480x128.ShapeCasts S20480x128
  shapeCasts_S20480x128_S1x20480x128 : S20480x128.ShapeCasts S1x20480x128
  inb_S512_S512_0 : ∀ a, (![0] : Fin 1 → Nat) a + S512.size a ≤ S512.size a
  h_S512 : 0 < S512.numel
  shapeCasts_S512_S512 : S512.ShapeCasts S512
  shapeCasts_S512_S512x1 : S512.ShapeCasts S512x1
  iota_S512x1024_d1_w32 : S512x1024.Iotas .tc 32 [1]
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S1024x128 : 0 < S1024x128.numel
  shapeCasts_S1024x128_S1024x128 : S1024x128.ShapeCasts S1024x128
  broadcasts_S512x1_S512x1024 : S512x1.Broadcasts S512x1024
  natLt_1_32 : 1 < 32
  h_S1x1024x128 : 0 < S1x1024x128.numel
  shapeCasts_S1x1024x128_S1024x128 : S1x1024x128.ShapeCasts S1024x128
  shapeCasts_S1024x128_S1x1024x128 : S1024x128.ShapeCasts S1x1024x128
  slices_S2x20480x128_S1x20480x128_0_0_0 : S2x20480x128.Slices ![0, 0, 0] S1x20480x128
  slices_S2x20480x128_S1x20480x128_1_0_0 : S2x20480x128.Slices ![1, 0, 0] S1x20480x128
  slices_S20480x128_S20000x128_0_0 : S20480x128.Slices ![0, 0] S20000x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  dot_S2048x256_S256x128_S2048x128_1_0_0_1_n_n_wf : DotDims.WF S2048x256 S256x128 S2048x128 [1] [0] [0] [1] [] []
  dot_S512x1024_S1024x128_S512x128_1_0_0_1_n_n_wf : DotDims.WF S512x1024 S1024x128 S512x128 [1] [0] [0] [1] [] []
  dot_S512x1024_S512x128_S1024x128_0_0_1_1_n_n_wf : DotDims.WF S512x1024 S512x128 S1024x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S20480x256.size a
  hwx0_0 : ∀ i : grid0.Coords, EltTy.bits .f32 = 32 ∨ (Rect.block (s := S20480x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S20480x128.size a
  hwx0_2 : ∀ i : grid0.Coords, EltTy.bits .f32 = 32 ∨ (Rect.block (s := S20480x128) S2048x128.size (cc0_transform_2 i) (hinb0_2 i)).WholeWords (EltTy.packing .f32)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x128.size a ≤ S20480x128.size a
  k1_t2_ok : k1_t2_loop.OK
  k1_mult2_dvd : ∀ k1_t2 : Fin k1_t2_loop.trips, 1024 ∣ (k1_mult2 k1_t2).toNat
  k1_off2_inb : ∀ k1_t2 : Fin k1_t2_loop.trips, ∀ a, (k1_off2 k1_t2) a + S1x1024x128.size a ≤ S1x20480x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512.size a ≤ S640000.size a
  hwx1_0 : ∀ i : grid1.Coords, EltTy.bits .i32 = 32 ∨ (Rect.block (s := S640000) S512.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S640000.size a
  hwx1_1 : ∀ i : grid1.Coords, EltTy.bits .i32 = 32 ∨ (Rect.block (s := S640000) S512.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20480x128.size a ≤ S20480x128.size a
  hwx1_2 : ∀ i : grid1.Coords, EltTy.bits .f32 = 32 ∨ (Rect.block (s := S20480x128) S20480x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x20480x128.size a ≤ S2x20480x128.size a
  hwx1_3 : ∀ i : grid1.Coords, EltTy.bits .f32 = 32 ∨ (Rect.block (s := S2x20480x128) S1x20480x128.size (cc1_transform_3 i) (hinb1_3 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x1024_S512x128_S1024x128_0_0_1_1_n_n : DotDims S512x1024 S512x128 S1024x128 where
  lhsContracting := [0]
  rhsContracting := [0]
  lhsNonContracting := [1]
  rhsNonContracting := [1]
  lhsBatch := []
  rhsBatch := []
  wf := dot_S512x1024_S512x128_S1024x128_0_0_1_1_n_n_wf

abbrev win0_0 : Pipeline.Window sig grid0 :=
  Pipeline.Window.ofSpec (Memref.whole main_v4) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S20480x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x20480x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S20000x256 : Shape := ⟨2, ![20000, 256]⟩
abbrev S2x640000 : Shape := ⟨2, ![2, 640000]⟩
abbrev S256x128 : Shape := ⟨2, ![256, 128]⟩
abbrev S128 : Shape := ⟨1, ![128]⟩
abbrev S20000x128 : Shape := ⟨2, ![20000, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 28
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S20000x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S20000x128, .f32⟩
  | .hbm, ⟨20, _⟩ => ⟨S640000x1, .i32⟩
  | .hbm, ⟨21, _⟩ => ⟨S20000x128, .f32⟩
  | .hbm, ⟨22, _⟩ => ⟨S1x128, .f32⟩
  | .hbm, ⟨23, _⟩ => ⟨S20000x128, .f32⟩
  | .hbm, ⟨24, _⟩ => ⟨S20000x128, .f32⟩
  | .hbm, ⟨25, _⟩ => ⟨S_, .f32⟩
  | .hbm, ⟨26, _⟩ => ⟨S20000x128, .f32⟩
  | .hbm, ⟨27, _⟩ => ⟨S20000x128, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  dot_S20000x256_S256x128_S20000x128_1_0_0_1_n_n_wf : DotDims.WF S20000x256 S256x128 S20000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1

variable [Facts₀]

def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

class Facts : Prop extends Facts₀ where

variable [Facts]
-- ==== Proof.Spec.lean ====
/-
  The specification of the graph-convolution layer, index by index over the extended reals, with no program in sight.

  For node features `x : [20000, 256]`, an edge list `ei : [2, 640000]` of 32-bit words (row 0 the destination of each
  edge, row 1 its source), weights `w : [256, 128]` and a bias `b : [128]`:

    lin x w k f        = Σ_j x[k, j] · w[j, f]                                  (the linear layer's row k)
    agg x ei w n f     = Σ_e [dest e = n] · lin x w (src e) f                   (messages summed at their destination)
    layer x ei w b n f = max (agg x ei w n f + b f) 0                           (bias, then the rectifier)

  The destination test compares WORDS (`ei[0, e] = n` as 32-bit patterns): an edge whose destination word names no node
  below 20000 contributes to no row. The source is read as a natural number and capped at the last node so that the
  definition is total; under the domain assumption (every source word below 20000) the cap never binds.
-/
import Idealize.ShloMosaic.PureOps.Ideal
import Idealize.ShloMosaic.Lib.ValueIdx

noncomputable section

open scoped BigOperators

namespace Cert.GraphConv

open Idealize.ShloMosaic Idealize.ShloMosaic.ValueIdx

/-- Row `k` of the linear layer at feature `f`: the inner product of `x`'s row with `w`'s column. -/
def lin (x : (⟨2, ![20000, 256]⟩ : Shape).Idx → EReal) (w : (⟨2, ![256, 128]⟩ : Shape).Idx → EReal)
    (k : Fin 20000) (f : Fin 128) : EReal :=
  ∑ j : Fin 256, x (ix2 k j) * w (ix2 j f)

/-- The node an edge's source word names, capped at the last node. -/
def srcNode (ei : (⟨2, ![2, 640000]⟩ : Shape).Idx → BitVec 32) (e : Fin 640000) : Fin 20000 :=
  ⟨min (ei (ix2 (1 : Fin 2) e)).toNat 19999, by omega⟩

/-- The messages arriving at node `n`, feature `f`: the linear layer's rows at the sources of the edges whose
    destination word is `n`. -/
def agg (x : (⟨2, ![20000, 256]⟩ : Shape).Idx → EReal) (ei : (⟨2, ![2, 640000]⟩ : Shape).Idx → BitVec 32)
    (w : (⟨2, ![256, 128]⟩ : Shape).Idx → EReal) (n : Fin 20000) (f : Fin 128) : EReal :=
  ∑ e : Fin 640000, if ei (ix2 (0 : Fin 2) e) = BitVec.ofNat 32 n.val then lin x w (srcNode ei e) f else 0

/-- The layer: aggregate, add the bias, rectify. -/
def layer (x : (⟨2, ![20000, 256]⟩ : Shape).Idx → EReal) (ei : (⟨2, ![2, 640000]⟩ : Shape).Idx → BitVec 32)
    (w : (⟨2, ![256, 128]⟩ : Shape).Idx → EReal) (b : (⟨1, ![128]⟩ : Shape).Idx → EReal) :
    (⟨2, ![20000, 128]⟩ : Shape).Idx → EReal :=
  fun i => max (agg x ei w (i 0) (i 1) + b (ix1 (i 1))) 0

/-- The domain assumption: every edge's source word, read unsigned, is a node. -/
def SrcInRange (ei : (⟨2, ![2, 640000]⟩ : Shape).Idx → BitVec 32) : Prop :=
  ∀ e : Fin 640000, (ei (ix2 (1 : Fin 2) e)).toNat < 20000

end Cert.GraphConv

end
-- ==== Proof.SumMath.lean ====
/-
  Two facts about finite sums that join the kernel's arrangement of the edges to the reference's.

  The kernel visits the 640000 edges as 2 cores × 625 steps × 512 lanes, edge number (625·core + step)·512 + lane:
  a triple sum over that arrangement is the sum over all edges. And a sum over a range of naturals below 2^32 of terms
  switched on by "the 32-bit word w is the number n" has at most one live term, the one at w's own value.
-/
import Mathlib.Algebra.BigOperators.Fin
import Mathlib.Algebra.BigOperators.Group.Finset.Basic
import Mathlib.Logic.Equiv.Fin.Basic
import Mathlib.Tactic.Ring
import Mathlib.Tactic.NormNum

open scoped BigOperators

namespace Cert.GraphConv

/-- The triple sum over (core, step, lane) is the sum over the edges. -/
theorem sum_edges {M : Type*} [AddCommMonoid M] (F : Fin 640000 → M) :
    ∑ k : Fin 2, ∑ s : Fin 625, ∑ e : Fin 512,
        F ⟨(625 * k.val + s.val) * 512 + e.val, by have := k.isLt; have := s.isLt; have := e.isLt; omega⟩
      = ∑ E : Fin 640000, F E := by
  let e1 : (Fin 2 × Fin 625) × Fin 512 ≃ Fin 640000 :=
    (Equiv.prodCongr finProdFinEquiv (Equiv.refl _)).trans (finProdFinEquiv.trans (finCongr (by norm_num)))
  rw [← Equiv.sum_comp e1 F, Fintype.sum_prod_type, Fintype.sum_prod_type]
  refine Finset.sum_congr rfl fun k _ => Finset.sum_congr rfl fun s _ => Finset.sum_congr rfl fun e _ =>
    congrArg F (Fin.ext ?_)
  show (625 * k.val + s.val) * 512 + e.val = e.val + 512 * (s.val + 625 * k.val)
  ring

/-- A sum over `n < N ≤ 2^32` switched on by "the word `w` is `n`" is the term at `w`'s value, when that value is below `N`. -/
theorem sum_word_eq {M : Type*} [AddCommMonoid M] {N : ℕ} (hN : N ≤ 2 ^ 32) (w : BitVec 32) (hw : w.toNat < N) (T : Fin N → M) :
    (∑ n : Fin N, if w = BitVec.ofNat 32 n.val then T n else 0) = T ⟨w.toNat, hw⟩ := by
  rw [Finset.sum_eq_single (⟨w.toNat, hw⟩ : Fin N)]
  · rw [if_pos (by simp)]
  · intro b _ hb
    rw [if_neg]
    intro h
    apply hb
    apply Fin.ext
    show b.val = w.toNat
    rw [h, BitVec.toNat_ofNat]
    exact (Nat.mod_eq_of_lt (lt_of_lt_of_le b.isLt hN)).symm
  · intro h; exact absurd (Finset.mem_univ _) h

end Cert.GraphConv
-- ==== Proof.KDefs.lean ====
/-
  The gather-scatter kernel's body, as three pure functions of its operands' blocks.

  One grid point of the second kernel takes a block of 512 destination words `rowb`, a block of 512 source words
  `colb`, and the whole padded table `hp : [20480, 128]`. It first builds, in a scratch of shape [512, 128], the table's
  rows named by the source words: twenty passes, pass `k` adding the product of a one-hot matrix (source word minus
  1024·k against the lane number) with rows 1024·k … 1024·k + 1023 of the table. It then adds, slab by slab, the product
  of the transposed one-hot matrix of the destination words with the gathered rows into the output block.

    tile hp k            rows 1024·k … 1024·k + 1023 of the table
    gathered colb hp n   the scratch after `n` passes of the first loop (zero before the first)
    slab rowb colb hp acc k   what pass `k` of the second loop stores into rows 1024·k … of the output block that held `acc`
-/
import proofs.«426135_j59957743452553_2_alg».proof.Proof.Gen.KernelIdeal.Skeleton
import Idealize.ShloMosaic.Lib.Pipeline.FrameBody
import Idealize.ShloMosaic.Lib.ValueIdx

noncomputable section

namespace Cert.KernelIdeal.Body

open Idealize.ShloMosaic Idealize.ShloMosaic.ValueIdx Cert.KernelIdeal Cert.KernelIdeal.Gen

variable {F : FTy → Type} [FloatOps F]

/-- Rows `1024·k … 1024·k + 1023` of the table: what pass `k` of the first loop loads. -/
def tile (hp : Vec F S20480x128 .f32) (k : Fin k1_t1_loop.trips) : Vec F S1024x128 .f32 :=
  View.ld hp (Rect.unit (s := S20480x128) (k1_off1 k) S1024x128.size (k1_off1_inb k))

/-- The scratch after `n` passes of the first loop: zero, then each pass's payload of the pass's tile and the scratch
    the pass before left. -/
def gathered (colb : Vec F S512 .i32) (hp : Vec F S20480x128 .f32) : ℕ → Vec F S512x128 .f32
  | 0 => k1_pay2
  | n + 1 =>
    if h : n < k1_t1_loop.trips then k1_pay3 colb ⟨n, h⟩ (tile hp ⟨n, h⟩) (gathered colb hp n)
    else gathered colb hp n

/-- Rows `1024·k … 1024·k + 1023` of the output block: what pass `k` of the second loop loads and stores back. -/
def slabOf (acc : Vec F S1x20480x128 .f32) (k : Fin k1_t2_loop.trips) : Vec F S1x1024x128 .f32 :=
  View.ld acc (Rect.unit (s := S1x20480x128) (k1_off2 k) S1x1024x128.size (k1_off2_inb k))

/-- What pass `k` of the second loop stores into its slab of an output block that held `acc`. -/
def slab (rowb colb : Vec F S512 .i32) (hp : Vec F S20480x128 .f32) (acc : Vec F S1x20480x128 .f32)
    (k : Fin k1_t2_loop.trips) : Vec F S1x1024x128 .f32 :=
  k1_pay4 rowb (gathered colb hp k1_t1_loop.trips) k (slabOf acc k)

/-- The output block after the body, from the block `acc` it started with: at row `r`, slab `r / 1024`'s new
    contents at row `r % 1024`. -/
def bodyOut (rowb colb : Vec F S512 .i32) (hp : Vec F S20480x128 .f32) (acc : Vec F S1x20480x128 .f32) :
    Vec F S1x20480x128 .f32 :=
  fun y =>
    slab rowb colb hp acc ⟨(y 1).val / 1024, by
        have h : (y 1).val < 20480 := (y 1).isLt
        have ht : k1_t2_loop.trips = 20 := by decide
        rw [ht]; omega⟩
      (ix3 (0 : Fin 1) (⟨(y 1).val % 1024, Nat.mod_lt _ (by decide)⟩ : Fin 1024) (⟨(y 2).val, (y 2).isLt⟩ : Fin 128))

end Cert.KernelIdeal.Body

end
-- ==== Proof.KBody.lean ====
/-
  What one grid point of the gather-scatter kernel leaves in its output block, read off the run's stores.

  A point that is the first of its core's run (case A) first stores zero over the whole block; every point then runs the
  two loops. The first loop's stores all land on the whole scratch, each reading back what the one before left: the
  scratch ends at `gathered`. The second loop's stores land on twenty disjoint slabs of the output block, pass k reading
  its own slab — untouched so far — of what the block held: the block ends at `bodyOut` of what it held.
-/
import proofs.«426135_j59957743452553_2_alg».proof.Proof.Gen.KernelIdeal.Frame
import proofs.«426135_j59957743452553_2_alg».proof.Proof.KDefs
import Idealize.ShloMosaic.Lib.Pipeline.Value

noncomputable section

namespace Cert.KernelIdeal.Body

open Idealize.ShloMosaic Idealize.ShloMosaic.ValueIdx Idealize.ShloMosaic.TcCoe Idealize.ShloMosaic.Tactic Idealize.SL.Sem Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl
theorem trips1 : k1_t1_loop.trips = 20 := by decide
theorem trips2 : k1_t2_loop.trips = 20 := by decide

/-- One store through the whole-shape rectangle leaves its payload, whatever was there. -/
theorem read_writes_whole {sig : RefSig} {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h inb w]

section Loops
variable (c : Dev nD) (i : grid1.Coords) (a2 : Memref sig .tc .vmem S512 .i32) (h2 : a2.IsWhole)
  (a3 : Memref sig .tc .vmem S512 .i32) (h3 : a3.IsWhole) (a4 : Memref sig .tc .vmem S20480x128 .f32) (h4 : a4.IsWhole)
  (a5 : Memref sig .tc .vmem S1x20480x128 .f32) (h5 : a5.IsWhole) (a6 : Memref sig .tc .vmem S512x128 .f32) (h6 : a6.IsWhole)

/-! ## The first loop: the scratch -/

/-- Pass `k`'s one store: over the whole scratch, the payload of the pass's tile and of the scratch as the pass finds it. -/
theorem trip1_eq (v3 : Vec F S512 .i32) (X4 : BufTy.Contents (Elt F) a4.view.ty) (k : Fin k1_t1_loop.trips)
    (f : BufTy.Contents (Elt F) a6.view.ty) :
    tripL_k1_t1 (F := F) Variants.none c none i a2 h2 a3 h3 a4 h4 a5 h5 a6 h6 v3 X4 k f
      = [⟨Rect.unit (s := S512x128) ![0, 0] S512x128.size inb_S512x128_S512x128_0_0,
          k1_pay3 v3 k (tile (a4.view.read (Elt F) X4) k)
            (View.ld (a6.view.read (Elt F) f) (Rect.unit (s := S512x128) ![0, 0] S512x128.size inb_S512x128_S512x128_0_0))⟩] := by
  unfold tripL_k1_t1 trip_k1_t1
  rfl

/-- The scratch, read whole, after `n` passes from contents that read zero: the fold `gathered`. -/
theorem scratch_after (v3 : Vec F S512 .i32) (X4 : BufTy.Contents (Elt F) a4.view.ty) (G6 : BufTy.Contents (Elt F) a6.view.ty)
    (hG : a6.view.read (Elt F) G6 = k1_pay2) : ∀ n : ℕ, n ≤ k1_t1_loop.trips →
    a6.view.read (Elt F) (a6.view.writes (Elt F) G6
        (pb_k1_t1 (F := F) Variants.none c none i a2 h2 a3 h3 a4 h4 a5 h5 a6 h6 v3 X4 G6 n))
      = gathered v3 (a4.view.read (Elt F) X4) n
  | 0, _ => by
    rw [show pb_k1_t1 (F := F) Variants.none c none i a2 h2 a3 h3 a4 h4 a5 h5 a6 h6 v3 X4 G6 0 = [] from rfl,
      View.writes_nil, hG]
    rfl
  | n + 1, hn => by
    have h : n < k1_t1_loop.trips := hn
    have ih := scratch_after v3 X4 G6 hG n (Nat.le_of_succ_le hn)
    rw [show n + 1 = (⟨n, h⟩ : Fin k1_t1_loop.trips).val + 1 from rfl, pb_k1_t1_succ, View.writes_append, trip1_eq,
      read_writes_whole _ _ hz2]
    try dsimp only
    rw [ih, View.ld_unit_zero (S := S512x128) hz2]
    show _ = (if h' : n < k1_t1_loop.trips then _ else _)
    rw [dif_pos h]

/-! ## The second loop: the output block -/

/-- Pass `k`'s one store: over its slab, the payload of the slab as the pass finds it. -/
theorem trip2_eq (v6 : Vec F S512 .i32) (v15 : Vec F S512x128 .f32) (k : Fin k1_t2_loop.trips)
    (f : BufTy.Contents (Elt F) a5.view.ty) :
    tripL_k1_t2 (F := F) Variants.none c none i a2 h2 a3 h3 a4 h4 a5 h5 a6 h6 v6 v15 k f
      = [⟨Rect.unit (s := S1x20480x128) (k1_off2 k) S1x1024x128.size (k1_off2_inb k),
          k1_pay4 v6 v15 k (slabOf (a5.view.read (Elt F) f) k)⟩] := by
  unfold tripL_k1_t2 trip_k1_t2
  rfl

/-- An index lies in slab `k` exactly when its row does. -/
theorem mem_slab (k : Fin k1_t2_loop.trips) (y : S1x20480x128.Idx) :
    y ∈ (Rect.unit (s := S1x20480x128) (k1_off2 k) S1x1024x128.size (k1_off2_inb k)).set
      ↔ 1024 * k.val ≤ (y 1).val ∧ (y 1).val < 1024 * k.val + 1024 := by
  rw [Rect.mem_set_unit, k1_off2_eq]
  have h0 : (y 0).val < 1 := (y 0).isLt
  have h2' : (y 2).val < 128 := (y 2).isLt
  constructor
  · intro h
    have := h 1
    exact this
  · intro h a
    match a with
    | ⟨0, _⟩ => exact ⟨Nat.zero_le _, by show (y 0).val < 0 + 1; omega⟩
    | ⟨1, _⟩ => exact h
    | ⟨2, _⟩ => exact ⟨Nat.zero_le _, by show (y 2).val < 0 + 128; omega⟩

/-- An index of slab `k` is the slab's own index (0, row − 1024·k, feature) placed in the block. -/
theorem emb_slab (k : Fin k1_t2_loop.trips) (y : S1x20480x128.Idx) (hlo : 1024 * k.val ≤ (y 1).val)
    (hhi : (y 1).val < 1024 * k.val + 1024) :
    (Rect.unit (s := S1x20480x128) (k1_off2 k) S1x1024x128.size (k1_off2_inb k)).emb
        (ix3 (0 : Fin 1) (⟨(y 1).val - 1024 * k.val, by omega⟩ : Fin 1024) (⟨(y 2).val, (y 2).isLt⟩ : Fin 128)) = y := by
  have h0 : (y 0).val < 1 := (y 0).isLt
  funext a
  refine Fin.ext ?_
  rw [Rect.emb_apply]
  simp only [Rect.off_unit, Rect.stride_unit, k1_off2_eq]
  match a with
  | ⟨0, _⟩ => show 0 + 1 * 0 = (y 0).val; omega
  | ⟨1, _⟩ => show 1024 * k.val + 1 * ((y 1).val - 1024 * k.val) = (y 1).val; omega
  | ⟨2, _⟩ => show 0 + 1 * (y 2).val = (y 2).val; omega

/-- The output block after `n` passes of the second loop over contents `G5`: the rows of the first `n` slabs hold the
    passes' payloads of what `G5` read there, the rest is as `G5` read. -/
theorem scatter_after (v6 : Vec F S512 .i32) (v15 : Vec F S512x128 .f32) (G5 : BufTy.Contents (Elt F) a5.view.ty) :
    ∀ n : ℕ, n ≤ k1_t2_loop.trips → ∀ y : S1x20480x128.Idx,
    a5.view.read (Elt F) (a5.view.writes (Elt F) G5
        (pb_k1_t2 (F := F) Variants.none c none i a2 h2 a3 h3 a4 h4 a5 h5 a6 h6 v6 v15 G5 n)) y
      = if (y 1).val < 1024 * n then
          k1_pay4 v6 v15 ⟨(y 1).val / 1024, by
              have h : (y 1).val < 20480 := (y 1).isLt
              rw [trips2]; omega⟩
            (slabOf (a5.view.read (Elt F) G5) ⟨(y 1).val / 1024, by
              have h : (y 1).val < 20480 := (y 1).isLt
              rw [trips2]; omega⟩)
            (ix3 (0 : Fin 1) (⟨(y 1).val % 1024, Nat.mod_lt _ (by decide)⟩ : Fin 1024) (⟨(y 2).val, (y 2).isLt⟩ : Fin 128))
        else a5.view.read (Elt F) G5 y
  | 0, _, y => by
    rw [show pb_k1_t2 (F := F) Variants.none c none i a2 h2 a3 h3 a4 h4 a5 h5 a6 h6 v6 v15 G5 0 = [] from rfl,
      View.writes_nil, if_neg (by omega)]
  | n + 1, hn, y => by
    have h : n < k1_t2_loop.trips := hn
    have hn20 : n < 20 := by rw [← trips2]; exact h
    have hfn : ((⟨n, h⟩ : Fin k1_t2_loop.trips) : ℕ) = n := rfl
    have ih := scatter_after v6 v15 G5 n (Nat.le_of_succ_le hn)
    rw [show n + 1 = (⟨n, h⟩ : Fin k1_t2_loop.trips).val + 1 from rfl, pb_k1_t2_succ, View.writes_append, trip2_eq]
    by_cases hy : y ∈ (Rect.unit (s := S1x20480x128) (k1_off2 ⟨n, h⟩) S1x1024x128.size (k1_off2_inb ⟨n, h⟩)).set
    · have hm := (mem_slab ⟨n, h⟩ y).mp hy
      have hlo : 1024 * n ≤ (y 1).val := hm.1
      have hhi : (y 1).val < 1024 * n + 1024 := hm.2
      clear hm
      have hq : (y 1).val / 1024 = n := by omega
      have hr : (y 1).val % 1024 = (y 1).val - 1024 * n := by omega
      rw [if_pos (by show (y 1).val < 1024 * (n + 1); omega)]
      conv_lhs => rw [← emb_slab ⟨n, h⟩ y hlo hhi]
      rw [View.read_writes_cons_emb]
      have hslab : slabOf (a5.view.read (Elt F) (a5.view.writes (Elt F) G5
            (pb_k1_t2 (F := F) Variants.none c none i a2 h2 a3 h3 a4 h4 a5 h5 a6 h6 v6 v15 G5 n))) ⟨n, h⟩
          = slabOf (a5.view.read (Elt F) G5) ⟨n, h⟩ := by
        funext x
        show a5.view.read (Elt F) _ ((Rect.unit (s := S1x20480x128) (k1_off2 ⟨n, h⟩) S1x1024x128.size (k1_off2_inb ⟨n, h⟩)).idx x)
          = a5.view.read (Elt F) G5 ((Rect.unit (s := S1x20480x128) (k1_off2 ⟨n, h⟩) S1x1024x128.size (k1_off2_inb ⟨n, h⟩)).idx x)
        have hm := (mem_slab ⟨n, h⟩ _).mp ((Rect.unit (s := S1x20480x128) (k1_off2 ⟨n, h⟩) S1x1024x128.size (k1_off2_inb ⟨n, h⟩)).idx_mem x)
        have hm1 : 1024 * n ≤ (((Rect.unit (s := S1x20480x128) (k1_off2 ⟨n, h⟩) S1x1024x128.size (k1_off2_inb ⟨n, h⟩)).idx x) 1).val := hm.1
        rw [ih, if_neg (by omega)]
      rw [hslab]
      have hk : (⟨(y 1).val / 1024, by have h' : (y 1).val < 20480 := (y 1).isLt; rw [trips2]; omega⟩ : Fin k1_t2_loop.trips) = ⟨n, h⟩ :=
        Fin.ext hq
      rw [hk]
      congr 1
      funext a
      refine Fin.ext ?_
      match a with
      | ⟨0, _⟩ => rfl
      | ⟨1, _⟩ => exact hr.symm
      | ⟨2, _⟩ => rfl
    · have hy' : y ∉ Finset.univ.map (Rect.unit (s := S1x20480x128) (k1_off2 ⟨n, h⟩) S1x1024x128.size (k1_off2_inb ⟨n, h⟩)).emb := by
        rwa [Rect.map_emb_univ]
      rw [View.writes_cons, View.read_slice_write_of_not_mem _ _ _ _ hy', View.writes_nil, ih]
      have hnot : ¬(1024 * n ≤ (y 1).val ∧ (y 1).val < 1024 * n + 1024) := fun hm => hy ((mem_slab ⟨n, h⟩ y).mpr hm)
      have hy1 : (y 1).val < 20480 := (y 1).isLt
      by_cases hlt : (y 1).val < 1024 * n
      · rw [if_pos hlt, if_pos (by omega)]
      · rw [if_neg hlt, if_neg (by omega)]

end Loops

/-! ## The two cases -/

/-- The scratch the second loop reads, in case B: the fold. -/
theorem v15_B (c : Dev nD) (i : grid1.Coords) (a2 : Memref sig .tc .vmem S512 .i32) (h2 : a2.IsWhole)
    (a3 : Memref sig .tc .vmem S512 .i32) (h3 : a3.IsWhole) (a4 : Memref sig .tc .vmem S20480x128 .f32) (h4 : a4.IsWhole)
    (a5 : Memref sig .tc .vmem S1x20480x128 .f32) (h5 : a5.IsWhole) (a6 : Memref sig .tc .vmem S512x128 .f32) (h6 : a6.IsWhole)
    (x1 : Vec F S512 .i32) (x2 : Vec F S20480x128 .f32) :
    kernelRun1_B.sl.v15 c i a2 h2 a3 h3 a4 h4 a5 h5 a6 h6 x1 x2 = gathered x1 x2 k1_t1_loop.trips := by
  sl_unfold_run_names
  rw [View.writes_append, View.readAt_eq_ld,
    scratch_after c i a2 h2 a3 h3 a4 h4 a5 h5 a6 h6 _ _ _ (read_writes_whole _ _ hz2 _ _) _ le_rfl,
    View.ld_unit_zero (S := S512x128) hz2, View.readAt_eq_ld, h3.read_unread, h4.read_unread,
    View.ld_unit_zero (S := S512) hz1]

/-- The same in case A. -/
theorem v15_A (c : Dev nD) (i : grid1.Coords) (a2 : Memref sig .tc .vmem S512 .i32) (h2 : a2.IsWhole)
    (a3 : Memref sig .tc .vmem S512 .i32) (h3 : a3.IsWhole) (a4 : Memref sig .tc .vmem S20480x128 .f32) (h4 : a4.IsWhole)
    (a5 : Memref sig .tc .vmem S1x20480x128 .f32) (h5 : a5.IsWhole) (a6 : Memref sig .tc .vmem S512x128 .f32) (h6 : a6.IsWhole)
    (x1 : Vec F S512 .i32) (x2 : Vec F S20480x128 .f32) :
    kernelRun1_A.sl.v15 c i a2 h2 a3 h3 a4 h4 a5 h5 a6 h6 x1 x2 = gathered x1 x2 k1_t1_loop.trips := by
  sl_unfold_run_names
  rw [View.writes_append, View.readAt_eq_ld,
    scratch_after c i a2 h2 a3 h3 a4 h4 a5 h5 a6 h6 _ _ _ (read_writes_whole _ _ hz2 _ _) _ le_rfl,
    View.ld_unit_zero (S := S512x128) hz2, View.readAt_eq_ld, h3.read_unread, h4.read_unread,
    View.ld_unit_zero (S := S512) hz1]

/-- CASE B (every point but the first of a core's run): over a block that held `xo3`. -/
theorem out_B (c : Dev nD) (i : grid1.Coords) (a2 : Memref sig .tc .vmem S512 .i32) (h2 : a2.IsWhole)
    (a3 : Memref sig .tc .vmem S512 .i32) (h3 : a3.IsWhole) (a4 : Memref sig .tc .vmem S20480x128 .f32) (h4 : a4.IsWhole)
    (a5 : Memref sig .tc .vmem S1x20480x128 .f32) (h5 : a5.IsWhole) (a6 : Memref sig .tc .vmem S512x128 .f32) (h6 : a6.IsWhole)
    (hc : ¬cond1_0 i) (x0 x1 : Vec F S512 .i32) (x2 : Vec F S20480x128 .f32) (xo3 : Vec F S1x20480x128 .f32) :
    out1_B_3 c i a2 h2 a3 h3 a4 h4 a5 h5 a6 h6 hc x0 x1 x2 xo3 = bodyOut x0 x1 x2 xo3 := by
  unfold out1_B_3
  rw [View.read_writes_eq_canon _ _ _ (cover1_B_3 c i a2 h2 a3 h3 a4 h4 a5 h5 a6 h6 hc x0 x1 x2 xo3),
    ← View.read_writes_eq_canon a5.view (h5.unread xo3) _ (cover1_B_3 c i a2 h2 a3 h3 a4 h4 a5 h5 a6 h6 hc x0 x1 x2 xo3)]
  unfold kernelRun1_B
  dsimp only
  funext y
  refine (scatter_after c i a2 h2 a3 h3 a4 h4 a5 h5 a6 h6 _ _ _ k1_t2_loop.trips le_rfl y).trans ?_
  have hy : (y 1).val < 20480 := (y 1).isLt
  rw [if_pos (by rw [trips2]; omega), v15_B, View.readAt_eq_ld, h2.read_unread, h5.read_unread,
    View.ld_unit_zero (S := S512) hz1]
  rfl

/-- CASE A (the first point of a core's run): over the zero block the reset stores. -/
theorem out_A (c : Dev nD) (i : grid1.Coords) (a2 : Memref sig .tc .vmem S512 .i32) (h2 : a2.IsWhole)
    (a3 : Memref sig .tc .vmem S512 .i32) (h3 : a3.IsWhole) (a4 : Memref sig .tc .vmem S20480x128 .f32) (h4 : a4.IsWhole)
    (a5 : Memref sig .tc .vmem S1x20480x128 .f32) (h5 : a5.IsWhole) (a6 : Memref sig .tc .vmem S512x128 .f32) (h6 : a6.IsWhole)
    (hc : cond1_0 i) (x0 x1 : Vec F S512 .i32) (x2 : Vec F S20480x128 .f32) :
    out1_A_3 c i a2 h2 a3 h3 a4 h4 a5 h5 a6 h6 hc x0 x1 x2 = bodyOut x0 x1 x2 (k1_pay1 (F := F)) := by
  unfold out1_A_3
  rw [View.read_writes_eq_canon _ _ _ (cover1_A_3 c i a2 h2 a3 h3 a4 h4 a5 h5 a6 h6 hc x0 x1 x2)]
  unfold kernelRun1_A
  dsimp only
  rw [← View.read_writes_junk_eq_canon a5.view, View.writes_append]
  funext y
  refine (scatter_after c i a2 h2 a3 h3 a4 h4 a5 h5 a6 h6 _ _ _ k1_t2_loop.trips le_rfl y).trans ?_
  have hy : (y 1).val < 20480 := (y 1).isLt
  rw [if_pos (by rw [trips2]; omega), v15_A, View.readAt_eq_ld, h2.read_unread,
    View.ld_unit_zero (S := S512) hz1]
  have hpay : a5.view.read (Elt F) (a5.view.writes (Elt F) a5.view.junk kernelRun1_A.sl.H3_1) = k1_pay1 (F := F) := by
    sl_unfold_run_names
    exact read_writes_whole _ _ hz3 _ _
  rw [hpay]
  rfl

end Cert.KernelIdeal.Body

end
-- ==== Proof.KPay.lean ====
/-
  The body's payloads read at an index, over the extended reals.

  A one-hot entry is 1 where the shifted index word equals the lane number and 0 elsewhere, so a product with a one-hot
  matrix selects: pass k of the first loop adds, at edge e and feature f, the table's row 1024·k + n' for the one lane n'
  (if any) with source word − 1024·k = n', i.e. the row the source word names when it lies in that tile. Twenty passes
  cover rows 0 … 20479. The second loop's pass k adds, at row r of its slab, the gathered rows of the edges whose
  destination word is 1024·k + r. Word subtraction is injective, so "word − 1024·k = n'" is "word = 1024·k + n'".
-/
import proofs.«426135_j59957743452553_2_alg».proof.Proof.KDefs
import Idealize.ShloMosaic.PureOps.Ideal.Laws
import Idealize.ShloMosaic.Lib.Pipeline.Value
import Idealize.ShloMosaic.Lib.ValueLayout

noncomputable section

open scoped BigOperators

namespace Cert.KernelIdeal.Body

open Idealize.ShloMosaic Idealize.ShloMosaic.ValueIdx Cert.KernelIdeal Cert.KernelIdeal.Gen

/-- A one-hot entry: the converted, widened comparison bit is 1 where the words agree and 0 elsewhere. -/
theorem onehot_val (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  unfold IntOp.cmpi
  by_cases h : a = b
  · subst h; simp
  · have hb : (a == b) = false := beq_eq_false_iff_ne.mpr h
    simp [hb, h]

/-- The one-hot matrix of the words `w` shifted down by `c`, against the lane number. -/
def ohMat (w : Vec Ideal S512 .i32) (c : BitVec 32) : FVec Ideal S512x1024 .bf16 :=
  truncf .bf16 (sitofp .f32 (extui 32 (cmpi .eq
    (broadcastTo S512x1024 (subi (shapeCast S512x1 (shapeCast S512 w shapeCasts_S512_S512) shapeCasts_S512_S512x1)
      (broadcast S512x1 c)) broadcasts_S512x1_S512x1024)
    (iota .tc S512x1024 32 [1] iota_S512x1024_d1_w32)) natLt_1_32)) bitsLt_bf16_f32

theorem ohMat_apply (w : Vec Ideal S512 .i32) (c : BitVec 32) (e : Fin 512) (n' : Fin 1024) :
    ohMat w c (ix2 e n') = if (w (ix1 e) : BitVec 32) - c = BitVec.ofNat 32 n'.val then 1 else 0 := by
  have hb : broadcastTo S512x1024 (subi (shapeCast S512x1 (shapeCast S512 w shapeCasts_S512_S512) shapeCasts_S512_S512x1)
      (broadcast S512x1 c)) broadcasts_S512x1_S512x1024 (ix2 e n') = (w (ix1 e) : BitVec 32) - c := by
    refine (broadcastTo_apply _ broadcasts_S512x1_S512x1024 (ix2 e n') (ix2 e (0 : Fin 1)) ?_).trans ?_
    · intro a
      match a with
      | ⟨0, _⟩ => rfl
      | ⟨1, _⟩ => rfl
    · show (shapeCast S512x1 (shapeCast S512 w shapeCasts_S512_S512) shapeCasts_S512_S512x1 (ix2 e (0 : Fin 1)) : BitVec 32) - c = _
      rw [shapeCast_self]
      refine congrArg (· - c) ?_
      refine shapeCast_apply w shapeCasts_S512_S512x1 _ (ix1 e) ?_
      rw [Shape.rowMajor_val_one, Shape.rowMajor_val_two]
      show e.val = e.val * 1 + 0
      omega
  have hi : iota .tc S512x1024 32 [1] iota_S512x1024_d1_w32 (ix2 e n') = BitVec.ofNat 32 n'.val :=
    iota_single_apply .tc S512x1024 32 1 iota_S512x1024_d1_w32 (ix2 e n')
  show FloatOps.sitofp (F := Ideal) .f32 ((IntOp.cmpi .eq _ _).setWidth 32) = _
  rw [onehot_val, hb, hi]

/-! The operand indices of the two products, axis by axis. -/

theorem lhs_mm1_0 (i : S512x128.Idx) (q : dot_S512x1024_S1024x128_S512x128_1_0_0_1_n_n.contr.Idx) :
    (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem lhs_mm1_1 (i : S512x128.Idx) (q : dot_S512x1024_S1024x128_S512x128_1_0_0_1_n_n.contr.Idx) :
    (dot_S512x1024_S1024x128_S512x128_1_0_0_1_n_n.lhsIdx i q 1).val = (q ⟨0, by decide⟩).val :=
  dot_S512x1024_S1024x128_S512x128_1_0_0_1_n_n.lhsIdx_val_of_single rfl i q
theorem rhs_mm1_0 (i : S512x128.Idx) (q : dot_S512x1024_S1024x128_S512x128_1_0_0_1_n_n.contr.Idx) :
    (dot_S512x1024_S1024x128_S512x128_1_0_0_1_n_n.rhsIdx i q 0).val = (q ⟨0, by decide⟩).val :=
  dot_S512x1024_S1024x128_S512x128_1_0_0_1_n_n.rhsIdx_val_of_single rfl i q
theorem rhs_mm1_1 (i : S512x128.Idx) (q : dot_S512x1024_S1024x128_S512x128_1_0_0_1_n_n.contr.Idx) :
    (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- The first product into the zero accumulator, at edge `e` and feature `f`: the sum over the tile's rows. -/
theorem mm1_apply (A : FVec Ideal S512x1024 .bf16) (B : FVec Ideal S1024x128 .bf16) (e : Fin 512) (f : Fin 128) :
    matmul dot_S512x1024_S1024x128_S512x128_1_0_0_1_n_n none A B (constant S512x128 .f32 0x00000000#32) (ix2 e f)
      = ∑ n' : Fin 1024, A (ix2 e n') * B (ix2 n' f) := by
  refine (Ideal.matmul_constant_zero_apply dot_S512x1024_S1024x128_S512x128_1_0_0_1_n_n none A B (ix2 e f)).trans ?_
  rw [← Equiv.sum_comp (ValueIdx.contrEquiv1 dot_S512x1024_S1024x128_S512x128_1_0_0_1_n_n 1024 rfl rfl).symm]
  refine Finset.sum_congr rfl fun k _ => ?_
  have hk := ValueIdx.contrEquiv1_symm_val dot_S512x1024_S1024x128_S512x128_1_0_0_1_n_n 1024 rfl rfl k
  have el : dot_S512x1024_S1024x128_S512x128_1_0_0_1_n_n.lhsIdx (ix2 e f) ((ValueIdx.contrEquiv1 dot_S512x1024_S1024x128_S512x128_1_0_0_1_n_n 1024 rfl rfl).symm k) = ix2 e k := funext fun a => Fin.ext (by
    match a with
    | ⟨0, _⟩ => exact lhs_mm1_0 _ _
    | ⟨1, _⟩ => exact (lhs_mm1_1 _ _).trans hk)
  have er : dot_S512x1024_S1024x128_S512x128_1_0_0_1_n_n.rhsIdx (ix2 e f) ((ValueIdx.contrEquiv1 dot_S512x1024_S1024x128_S512x128_1_0_0_1_n_n 1024 rfl rfl).symm k) = ix2 k f := funext fun a => Fin.ext (by
    match a with
    | ⟨0, _⟩ => exact (rhs_mm1_0 _ _).trans hk
    | ⟨1, _⟩ => exact rhs_mm1_1 _ _)
  rw [el, er]

theorem lhs_mm2_0 (i : S1024x128.Idx) (q : dot_S512x1024_S512x128_S1024x128_0_0_1_1_n_n.contr.Idx) :
    (dot_S512x1024_S512x128_S1024x128_0_0_1_1_n_n.lhsIdx i q 0).val = (q ⟨0, by decide⟩).val :=
  dot_S512x1024_S512x128_S1024x128_0_0_1_1_n_n.lhsIdx_val_of_single rfl i q
theorem lhs_mm2_1 (i : S1024x128.Idx) (q : dot_S512x1024_S512x128_S1024x128_0_0_1_1_n_n.contr.Idx) :
    (dot_S512x1024_S512x128_S1024x128_0_0_1_1_n_n.lhsIdx i q 1).val = (i 0).val := by
  unfold DotDims.lhsIdx
  rw [dif_neg (show ¬(1 : Fin S512x1024.rank) ∈ dot_S512x1024_S512x128_S1024x128_0_0_1_1_n_n.lhsBatch by decide), dif_pos (show (1 : Fin S512x1024.rank) ∈ dot_S512x1024_S512x128_S1024x128_0_0_1_1_n_n.lhsNonContracting by decide)]
  rfl
theorem rhs_mm2_0 (i : S1024x128.Idx) (q : dot_S512x1024_S512x128_S1024x128_0_0_1_1_n_n.contr.Idx) :
    (dot_S512x1024_S512x128_S1024x128_0_0_1_1_n_n.rhsIdx i q 0).val = (q ⟨0, by decide⟩).val :=
  dot_S512x1024_S512x128_S1024x128_0_0_1_1_n_n.rhsIdx_val_of_single rfl i q
theorem rhs_mm2_1 (i : S1024x128.Idx) (q : dot_S512x1024_S512x128_S1024x128_0_0_1_1_n_n.contr.Idx) :
    (dot_S512x1024_S512x128_S1024x128_0_0_1_1_n_n.rhsIdx i q 1).val = (i 1).val := by
  unfold DotDims.rhsIdx
  rw [dif_neg (show ¬(1 : Fin S512x128.rank) ∈ dot_S512x1024_S512x128_S1024x128_0_0_1_1_n_n.rhsBatch by decide), dif_pos (show (1 : Fin S512x128.rank) ∈ dot_S512x1024_S512x128_S1024x128_0_0_1_1_n_n.rhsNonContracting by decide)]
  rfl

/-- The second product into the zero accumulator, at slab row `r` and feature `f`: the sum over the edges. -/
theorem mm2_apply (A : FVec Ideal S512x1024 .bf16) (B : FVec Ideal S512x128 .bf16) (r : Fin 1024) (f : Fin 128) :
    matmul dot_S512x1024_S512x128_S1024x128_0_0_1_1_n_n none A B (constant S1024x128 .f32 0x00000000#32) (ix2 r f)
      = ∑ e : Fin 512, A (ix2 e r) * B (ix2 e f) := by
  refine (Ideal.matmul_constant_zero_apply dot_S512x1024_S512x128_S1024x128_0_0_1_1_n_n none A B (ix2 r f)).trans ?_
  rw [← Equiv.sum_comp (ValueIdx.contrEquiv1 dot_S512x1024_S512x128_S1024x128_0_0_1_1_n_n 512 rfl rfl).symm]
  refine Finset.sum_congr rfl fun k _ => ?_
  have hk := ValueIdx.contrEquiv1_symm_val dot_S512x1024_S512x128_S1024x128_0_0_1_1_n_n 512 rfl rfl k
  have el : dot_S512x1024_S512x128_S1024x128_0_0_1_1_n_n.lhsIdx (ix2 r f) ((ValueIdx.contrEquiv1 dot_S512x1024_S512x128_S1024x128_0_0_1_1_n_n 512 rfl rfl).symm k) = ix2 k r := funext fun a => Fin.ext (by
    match a with
    | ⟨0, _⟩ => exact (lhs_mm2_0 _ _).trans hk
    | ⟨1, _⟩ => exact lhs_mm2_1 _ _)
  have er : dot_S512x1024_S512x128_S1024x128_0_0_1_1_n_n.rhsIdx (ix2 r f) ((ValueIdx.contrEquiv1 dot_S512x1024_S512x128_S1024x128_0_0_1_1_n_n 512 rfl rfl).symm k) = ix2 k f := funext fun a => Fin.ext (by
    match a with
    | ⟨0, _⟩ => exact (rhs_mm2_0 _ _).trans hk
    | ⟨1, _⟩ => exact rhs_mm2_1 _ _)
  rw [el, er]

/-- The loop word of pass `k`, times 1024, is the word of `1024·k`. -/
theorem passWord (k : ℕ) :
    Scalar.muli (Scalar.addi 0#32 (Scalar.muli (Scf.iv 0#32 1#32 k) 1#32)) 1024#32 = BitVec.ofNat 32 (1024 * k) := by
  show (0#32 + (0#32 + BitVec.ofNat 32 k * 1#32) * 1#32) * 1024#32 = _
  rw [BitVec.mul_one, BitVec.mul_one, BitVec.zero_add, BitVec.zero_add, Nat.mul_comm, BitVec.ofNat_mul]

/-- Word subtraction is injective: `a − m = n` is `a = m + n`. -/
theorem word_sub_eq_iff (a : BitVec 32) (m n : ℕ) :
    a - BitVec.ofNat 32 m = BitVec.ofNat 32 n ↔ a = BitVec.ofNat 32 (m + n) := by
  constructor
  · intro h
    rw [BitVec.ofNat_add, ← h, BitVec.add_comm, BitVec.sub_add_cancel]
  · intro h
    rw [h, BitVec.ofNat_add, BitVec.add_comm, BitVec.add_sub_cancel]

/-- A one-hot entry selects. -/
theorem ite_one_zero_mul (c : Prop) [Decidable c] (a : EReal) : (if c then (1 : EReal) else 0) * a = if c then a else 0 := by
  split <;> simp

theorem pay3_eq (colb : Vec Ideal S512 .i32) (k : Fin k1_t1_loop.trips) (tileK : Vec Ideal S1024x128 .f32)
    (acc : Vec Ideal S512x128 .f32) :
    k1_pay3 (F := Ideal) colb k tileK acc
      = shapeCast S512x128 (addf acc (matmul dot_S512x1024_S1024x128_S512x128_1_0_0_1_n_n none
          (ohMat colb (Scalar.muli (Scalar.addi 0#32 (Scalar.muli (Scf.iv 0#32 1#32 k) 1#32)) 1024#32))
          (truncf .bf16 (shapeCast S1024x128 tileK shapeCasts_S1024x128_S1024x128) bitsLt_bf16_f32)
          (constant S512x128 .f32 0x00000000#32))) shapeCasts_S512x128_S512x128 := rfl

/-- One pass of the first loop, at edge `e` and feature `f`: what the scratch held plus the tile's row the source word
    names, if it names one of the tile's. -/
theorem pay3_apply (colb : Vec Ideal S512 .i32) (k : Fin k1_t1_loop.trips) (tileK : Vec Ideal S1024x128 .f32)
    (acc : Vec Ideal S512x128 .f32) (e : Fin 512) (f : Fin 128) :
    k1_pay3 (F := Ideal) colb k tileK acc (ix2 e f)
      = acc (ix2 e f) + ∑ n' : Fin 1024,
          if (colb (ix1 e) : BitVec 32) = BitVec.ofNat 32 (1024 * k.val + n'.val) then tileK (ix2 n' f) else 0 := by
  rw [pay3_eq, shapeCast_self, passWord]
  refine (addf_apply _ _ _).trans ?_
  refine congrArg (acc (ix2 e f) + ·) ?_
  refine (mm1_apply _ _ e f).trans ?_
  refine Finset.sum_congr rfl fun n' _ => ?_
  rw [ohMat_apply, shapeCast_self, ite_one_zero_mul]
  simp only [word_sub_eq_iff]
  rfl

/-- The tile of pass `k` at its row `n'` is the table's row `1024·k + n'`. -/
theorem tile_apply (hp : Vec Ideal S20480x128 .f32) (k : Fin k1_t1_loop.trips) (n' : Fin 1024) (f : Fin 128)
    (h : 1024 * k.val + n'.val < 20480) :
    tile hp k (ix2 n' f) = hp (ix2 (⟨1024 * k.val + n'.val, h⟩ : Fin 20480) f) := by
  show hp ((Rect.unit (s := S20480x128) (k1_off1 k) S1024x128.size (k1_off1_inb k)).idx (ix2 n' f)) = _
  refine congrArg hp (funext fun a => Fin.ext ?_)
  have ho := k1_off1_eq k
  match a with
  | ⟨0, _⟩ =>
    show k1_off1 k 0 + 1 * n'.val = 1024 * k.val + n'.val
    rw [ho]; show 1024 * k.val + 1 * n'.val = _; omega
  | ⟨1, _⟩ =>
    show k1_off1 k 1 + 1 * f.val = f.val
    rw [ho]; show 0 + 1 * f.val = _; omega

/-- The scratch before the first pass is zero. -/
theorem pay2_apply (y : S512x128.Idx) : (k1_pay2 (F := Ideal)) y = 0 := by
  show shapeCast S512x128 (broadcast S512x128 (Ideal.ofBits .f32 0x00000000#32)) shapeCasts_S512x128_S512x128 y = 0
  rw [shapeCast_self]
  exact Ideal.ofBits_zero_f32

/-- The table's row `m` at feature `f`, zero past the table's end. -/
def rowAt (hp : Vec Ideal S20480x128 .f32) (f : Fin 128) (m : ℕ) : EReal :=
  if h : m < 20480 then hp (ix2 (⟨m, h⟩ : Fin 20480) f) else 0

/-- After `n` passes the scratch holds, at edge `e` and feature `f`, the sum over the rows below `1024·n` of the row
    the source word names. -/
theorem gathered_rows (colb : Vec Ideal S512 .i32) (hp : Vec Ideal S20480x128 .f32) (e : Fin 512) (f : Fin 128) :
    ∀ n : ℕ, n ≤ 20 → gathered (F := Ideal) colb hp n (ix2 e f)
      = ∑ m ∈ Finset.range (1024 * n), if (colb (ix1 e) : BitVec 32) = BitVec.ofNat 32 m then rowAt hp f m else 0
  | 0, _ => by
    rw [gathered, pay2_apply]
    simp
  | n + 1, hn => by
    have ht : k1_t1_loop.trips = 20 := by decide
    have h : n < k1_t1_loop.trips := by rw [ht]; omega
    rw [gathered, dif_pos h, pay3_apply, gathered_rows colb hp e f n (by omega), Nat.mul_succ, Finset.sum_range_add]
    refine congrArg (_ + ·) ?_
    rw [← Fin.sum_univ_eq_sum_range
      (fun x => if (colb (ix1 e) : BitVec 32) = BitVec.ofNat 32 (1024 * n + x) then rowAt hp f (1024 * n + x) else 0) 1024]
    refine Finset.sum_congr rfl fun n' _ => ?_
    have hlt : 1024 * n + n'.val < 20480 := by have := n'.isLt; omega
    rw [tile_apply hp ⟨n, h⟩ n' f hlt]
    unfold rowAt
    rw [dif_pos hlt]

theorem pay4_eq (rowb : Vec Ideal S512 .i32) (G : Vec Ideal S512x128 .f32) (k : Fin k1_t2_loop.trips)
    (sl : Vec Ideal S1x1024x128 .f32) :
    k1_pay4 (F := Ideal) rowb G k sl
      = shapeCast S1x1024x128 (addf (shapeCast S1024x128 sl shapeCasts_S1x1024x128_S1024x128)
          (matmul dot_S512x1024_S512x128_S1024x128_0_0_1_1_n_n none
            (ohMat rowb (Scalar.muli (Scalar.addi 0#32 (Scalar.muli (Scf.iv 0#32 1#32 k) 1#32)) 1024#32))
            (truncf .bf16 G bitsLt_bf16_f32)
            (constant S1024x128 .f32 0x00000000#32))) shapeCasts_S1024x128_S1x1024x128 := rfl

/-- One pass of the second loop, at slab row `r` and feature `f`: what the slab held plus the gathered rows of the
    edges whose destination word is `1024·k + r`. -/
theorem pay4_apply (rowb : Vec Ideal S512 .i32) (G : Vec Ideal S512x128 .f32) (k : Fin k1_t2_loop.trips)
    (sl : Vec Ideal S1x1024x128 .f32) (r : Fin 1024) (f : Fin 128) :
    k1_pay4 (F := Ideal) rowb G k sl (ix3 (0 : Fin 1) r f)
      = sl (ix3 (0 : Fin 1) r f) + ∑ e : Fin 512,
          if (rowb (ix1 e) : BitVec 32) = BitVec.ofNat 32 (1024 * k.val + r.val) then G (ix2 e f) else 0 := by
  rw [pay4_eq, passWord]
  refine (shapeCast_ab_1ab_apply _ shapeCasts_S1024x128_S1x1024x128 (0 : Fin 1) r f).trans ?_
  refine (addf_apply _ _ _).trans ?_
  rw [shapeCast_1ab_ab_apply sl shapeCasts_S1x1024x128_S1024x128 r f]
  refine congrArg (sl (ix3 (0 : Fin 1) r f) + ·) ?_
  refine (mm2_apply _ _ r f).trans ?_
  refine Finset.sum_congr rfl fun e _ => ?_
  rw [ohMat_apply, ite_one_zero_mul]
  simp only [word_sub_eq_iff]
  rfl

/-- The slab of pass `k` at its row `r` is the output block's row `1024·k + r`. -/
theorem slabOf_apply (acc : Vec Ideal S1x20480x128 .f32) (k : Fin k1_t2_loop.trips) (r : Fin 1024) (f : Fin 128)
    (h : 1024 * k.val + r.val < 20480) :
    slabOf acc k (ix3 (0 : Fin 1) r f) = acc (ix3 (0 : Fin 1) (⟨1024 * k.val + r.val, h⟩ : Fin 20480) f) := by
  show acc ((Rect.unit (s := S1x20480x128) (k1_off2 k) S1x1024x128.size (k1_off2_inb k)).idx (ix3 (0 : Fin 1) r f)) = _
  refine congrArg acc (funext fun a => Fin.ext ?_)
  have ho := k1_off2_eq k
  match a with
  | ⟨0, _⟩ =>
    show k1_off2 k 0 + 1 * 0 = 0
    rw [ho]; rfl
  | ⟨1, _⟩ =>
    show k1_off2 k 1 + 1 * r.val = 1024 * k.val + r.val
    rw [ho]; show 1024 * k.val + 1 * r.val = _; omega
  | ⟨2, _⟩ =>
    show k1_off2 k 2 + 1 * f.val = f.val
    rw [ho]; show 0 + 1 * f.val = _; omega

/-- The scratch after the first loop, at edge `e` and feature `f`: the table's row the source word names (a sum with at
    most one non-zero term: rows 0 … 20479 are all the loop visits). -/
theorem gathered_apply (colb : Vec Ideal S512 .i32) (hp : Vec Ideal S20480x128 .f32) (e : Fin 512) (f : Fin 128) :
    gathered (F := Ideal) colb hp k1_t1_loop.trips (ix2 e f)
      = ∑ n : Fin 20480, if (colb (ix1 e) : BitVec 32) = BitVec.ofNat 32 n.val then hp (ix2 n f) else 0 := by
  rw [show k1_t1_loop.trips = 20 from by decide, gathered_rows colb hp e f 20 (Nat.le_refl 20)]
  show ∑ m ∈ Finset.range 20480, _ = _
  rw [← Fin.sum_univ_eq_sum_range
    (fun m => if (colb (ix1 e) : BitVec 32) = BitVec.ofNat 32 m then rowAt hp f m else 0) 20480]
  refine Finset.sum_congr rfl fun n _ => ?_
  unfold rowAt
  rw [dif_pos n.isLt]

/-- The output block after the body, at node row `n` and feature `f`: what the block held plus the gathered rows of the
    block's edges whose destination word is `n`. -/
theorem bodyOut_apply (rowb colb : Vec Ideal S512 .i32) (hp : Vec Ideal S20480x128 .f32) (acc : Vec Ideal S1x20480x128 .f32)
    (n : Fin 20480) (f : Fin 128) :
    bodyOut (F := Ideal) rowb colb hp acc (ix3 (0 : Fin 1) n f)
      = acc (ix3 (0 : Fin 1) n f)
        + ∑ e : Fin 512, if (rowb (ix1 e) : BitVec 32) = BitVec.ofNat 32 n.val then
            (∑ n' : Fin 20480, if (colb (ix1 e) : BitVec 32) = BitVec.ofNat 32 n'.val then hp (ix2 n' f) else 0) else 0 := by
  have ht : k1_t2_loop.trips = 20 := by decide
  have hn := n.isLt
  have hk : n.val / 1024 < k1_t2_loop.trips := by rw [ht]; omega
  have hr : n.val % 1024 < 1024 := Nat.mod_lt _ (by decide)
  have hlt : 1024 * (n.val / 1024) + n.val % 1024 < 20480 := by omega
  have e1 : 1024 * (n.val / 1024) + n.val % 1024 = n.val := Nat.div_add_mod n.val 1024
  have en : (⟨1024 * (n.val / 1024) + n.val % 1024, hlt⟩ : Fin 20480) = n := Fin.ext e1
  show k1_pay4 (F := Ideal) rowb (gathered colb hp k1_t1_loop.trips) ⟨n.val / 1024, hk⟩ (slabOf acc ⟨n.val / 1024, hk⟩)
      (ix3 (0 : Fin 1) (⟨n.val % 1024, hr⟩ : Fin 1024) (⟨f.val, f.isLt⟩ : Fin 128)) = _
  refine (pay4_apply rowb _ ⟨n.val / 1024, hk⟩ _ ⟨n.val % 1024, hr⟩ ⟨f.val, f.isLt⟩).trans ?_
  rw [slabOf_apply acc ⟨n.val / 1024, hk⟩ ⟨n.val % 1024, hr⟩ ⟨f.val, f.isLt⟩ hlt]
  show acc (ix3 (0 : Fin 1) (⟨1024 * (n.val / 1024) + n.val % 1024, hlt⟩ : Fin 20480) f)
      + ∑ e : Fin 512, (if (rowb (ix1 e) : BitVec 32) = BitVec.ofNat 32 (1024 * (n.val / 1024) + n.val % 1024) then
          gathered (F := Ideal) colb hp k1_t1_loop.trips (ix2 e f) else 0) = _
  rw [en, e1]
  refine congrArg (_ + ·) (Finset.sum_congr rfl fun e _ => ?_)
  rw [gathered_apply]

/-- The block the first point of a core's run starts from (the reset's store) is zero everywhere. -/
theorem pay1_apply (y : S1x20480x128.Idx) : (k1_pay1 (F := Ideal)) y = 0 := by
  show shapeCast S1x20480x128 (broadcast S20480x128 (Ideal.ofBits .f32 0x00000000#32)) shapeCasts_S20480x128_S1x20480x128 y = 0
  unfold shapeCast
  exact Ideal.ofBits_zero_f32

end Cert.KernelIdeal.Body

end
-- ==== Proof.KAcc.lean ====
/-
  The second kernel's result array after its run.

  The grid is (core, step) = (2, 625), point t = 625·core + step. The output block of core `c` is (c, :, :), carried
  across the core's 625 points and written back after the last. At step 0 the body resets the block and adds the first
  block of edges; at every later step it adds that step's block of edges. So after the run the array at (c, n, f) is the
  sum over the core's 625 steps of the step's 512 edges' contributions at node row n.
-/
import proofs.«426135_j59957743452553_2_alg».proof.Proof.Gen.KernelIdeal.Frame
import proofs.«426135_j59957743452553_2_alg».proof.Proof.KBody
import proofs.«426135_j59957743452553_2_alg».proof.Proof.KPay
import Idealize.ShloMosaic.Lib.Pipeline.Value

noncomputable section

open scoped BigOperators

namespace Cert.KernelIdeal.Acc

open Idealize.ShloMosaic Idealize.ShloMosaic.ValueIdx Idealize.ShloMosaic.TcCoe Idealize.SL.Sem Cert.KernelIdeal Cert.KernelIdeal.Gen Cert.KernelIdeal.Body
open Idealize.ShloMosaic.Pipeline (Dat)

variable (V : (c : Dev nD) → (b : Ref sig .tc) → Buf (Elt Ideal) ((c : Thread nD τ).loc b))

/-- Edge number of lane `e` of step `s` of core `k`. -/
abbrev edgeOf (k : Fin 2) (s : Fin 625) (e : Fin 512) : Fin 640000 :=
  ⟨(625 * k.val + s.val) * 512 + e.val, by have := k.isLt; have := s.isLt; have := e.isLt; omega⟩

/-- The memory the region is entered with, at three buffers and at their literal types: destinations (main_v1), sources
    (main_v3), the padded table (main_v5). -/
abbrev rowsOf (c : Dev nD) : IVec S640000 32 := V c main_v1
abbrev colsOf (c : Dev nD) : IVec S640000 32 := V c main_v3
abbrev tableOf (c : Dev nD) : FVec Ideal S20480x128 .f32 := V c main_v5

/-- The block indices of the four windows at every grid point, decided once over the grid: the two edge windows' block is
    the point's own number, the table's block is the whole table, the output's block is the core's plane. -/
theorem idx0 : ∀ t : Fin grid1.N, win1_0.index t 0 = t.val := by decide +kernel
theorem idx1 : ∀ t : Fin grid1.N, win1_1.index t 0 = t.val := by decide +kernel
theorem idx2 : ∀ t : Fin grid1.N, win1_2.index t 0 = 0 ∧ win1_2.index t 1 = 0 := by decide +kernel
theorem idx3 : ∀ t : Fin grid1.N, win1_3.index t 0 = t.val / 625 ∧ win1_3.index t 1 = 0 ∧ win1_3.index t 2 = 0 := by decide +kernel

/-- The three input blocks at point t, at their literal types: destinations, sources, table. -/
abbrev rowblk (c : Dev nD) (t : Fin cfg1.N) : Vec Ideal S512 .i32 := iblk1 V c 0 t
abbrev colblk (c : Dev nD) (t : Fin cfg1.N) : Vec Ideal S512 .i32 := iblk1 V c 1 t
abbrev tabblk (c : Dev nD) (t : Fin cfg1.N) : Vec Ideal S20480x128 .f32 := iblk1 V c 2 t

/-- Lane e of the destinations' block at point t is destination word 512·t + e. -/
theorem rowblk_apply (c : Dev nD) (t : Fin cfg1.N) (e : Fin 512) (k : Fin 640000) (hk : k.val = t.val * 512 + e.val) :
    rowblk V c t (ix1 e) = rowsOf V c (ix1 k) := by
  unfold rowblk iblk1
  rw [View.read_apply]
  show V c main_v1 _ = V c main_v1 _
  congr 1
  funext a
  apply Fin.ext
  match a with
  | ⟨0, _⟩ => show win1_0.index t 0 * 512 + 1 * e.val = k.val; rw [idx0 t, hk]; omega

/-- Lane e of the sources' block at point t is source word 512·t + e. -/
theorem colblk_apply (c : Dev nD) (t : Fin cfg1.N) (e : Fin 512) (k : Fin 640000) (hk : k.val = t.val * 512 + e.val) :
    colblk V c t (ix1 e) = colsOf V c (ix1 k) := by
  unfold colblk iblk1
  rw [View.read_apply]
  show V c main_v3 _ = V c main_v3 _
  congr 1
  funext a
  apply Fin.ext
  match a with
  | ⟨0, _⟩ => show win1_1.index t 0 * 512 + 1 * e.val = k.val; rw [idx1 t, hk]; omega

/-- The table's block is the whole table at every point. -/
theorem tabblk_eq (c : Dev nD) (t : Fin cfg1.N) : tabblk V c t = tableOf V c := by
  have hz' : (fun a => win1_2.index t a * main_v5.ty.shape.size a) = fun _ => 0 := funext fun a => by
    match a with
    | ⟨0, _⟩ => show win1_2.index t 0 * _ = 0; rw [(idx2 t).1]; exact Nat.zero_mul _
    | ⟨1, _⟩ => show win1_2.index t 1 * _ = 0; rw [(idx2 t).2]; exact Nat.zero_mul _
  exact Memref.read_access_unit_zero (Elt Ideal) main_v5 hz' (fun a => by rw [congrFun hz' a]; simp) (V c main_v5)

/-- One point's addend at an index of the output block. -/
def contrib (rowb colb : Vec Ideal S512 .i32) (hp : Vec Ideal S20480x128 .f32) (y : S1x20480x128.Idx) : EReal :=
  ∑ e : Fin 512, if (rowb (ix1 e) : BitVec 32) = BitVec.ofNat 32 (y 1).val then
      (∑ n' : Fin 20480, if (colb (ix1 e) : BitVec 32) = BitVec.ofNat 32 n'.val then
        hp (ix2 n' (⟨(y 2).val, (y 2).isLt⟩ : Fin 128)) else 0) else 0

/-- The body's output at any index of the block: what the block held plus the point's addend. -/
theorem bodyOut_at (rowb colb : Vec Ideal S512 .i32) (hp : Vec Ideal S20480x128 .f32) (acc : Vec Ideal S1x20480x128 .f32)
    (y : S1x20480x128.Idx) : bodyOut (F := Ideal) rowb colb hp acc y = acc y + contrib rowb colb hp y := by
  have hy : y = ix3 (0 : Fin 1) (⟨(y 1).val, (y 1).isLt⟩ : Fin 20480) (⟨(y 2).val, (y 2).isLt⟩ : Fin 128) := by
    funext a
    match a with
    | ⟨0, _⟩ => exact Subsingleton.elim (α := Fin 1) _ _
    | ⟨1, _⟩ => rfl
    | ⟨2, _⟩ => rfl
  conv_lhs => rw [hy]
  rw [bodyOut_apply, ← hy]
  rfl

/-- At the first point of a core's run the block is the body's output over the zero block. -/
theorem step_A (c : Dev nD) (t : Fin cfg1.N) (h0 : t.val % 625 = 0) :
    outsAt1 V c t.val t.isLt = bodyOut (rowblk V c t) (colblk V c t) (tabblk V c t) (k1_pay1 (F := Ideal)) :=
  (outsAt1_A V c t h0).trans (out_A c (grid1.coords t) (ms1_0 t) (hs1_0 t) (ms1_1 t) (hs1_1 t) (ms1_2 t) (hs1_2 t)
    (ms1_3 t) (hs1_3 t) scM1_0 (Memref.isWhole_whole _) ((hcond1_0 t).mpr h0) (rowblk V c t) (colblk V c t) (tabblk V c t))

/-- At every later point it is the body's output over what the point before left. -/
theorem step_B (c : Dev nD) (t : Fin cfg1.N) (h0 : ¬t.val % 625 = 0) :
    outsAt1 V c t.val t.isLt = bodyOut (rowblk V c t) (colblk V c t) (tabblk V c t)
      (outsAt1 V c (t.val - 1) (Nat.lt_of_le_of_lt (Nat.sub_le _ _) t.isLt)) :=
  (outsAt1_B V c t h0).trans (out_B c (grid1.coords t) (ms1_0 t) (hs1_0 t) (ms1_1 t) (hs1_1 t) (ms1_2 t) (hs1_2 t)
    (ms1_3 t) (hs1_3 t) scM1_0 (Memref.isWhole_whole _) (fun h => h0 ((hcond1_0 t).mp h)) (rowblk V c t) (colblk V c t)
    (tabblk V c t) (outsAt1 V c (t.val - 1) (Nat.lt_of_le_of_lt (Nat.sub_le _ _) t.isLt)))

/-- Point n's addend (zero past the grid). -/
def addend (c : Dev nD) (n : ℕ) (y : S1x20480x128.Idx) : EReal :=
  if h : n < cfg1.N then contrib (rowblk V c ⟨n, h⟩) (colblk V c ⟨n, h⟩) (tabblk V c ⟨n, h⟩) y else 0

/-- The block after point u does not depend on how u is written. -/
theorem outsAt_irrel (c : Dev nD) (u v : ℕ) (hu : u < cfg1.N) (hv : v < cfg1.N) (e : u = v) :
    outsAt1 (F := Ideal) V c u hu = outsAt1 V c v hv := by subst e; rfl

/-- After step j of core q's run the block holds the sum of the addends of the run's points 0 … j: induction on j. -/
theorem outsAt_closed (c : Dev nD) (q : ℕ) : ∀ (j : ℕ) (hj : j < 625) (h : 625 * q + j < cfg1.N) (y : S1x20480x128.Idx),
    outsAt1 V c (625 * q + j) h y = ∑ s ∈ Finset.range (j + 1), addend V c (625 * q + s) y
  | 0, _, h, y => by
    have h0 : (⟨625 * q + 0, h⟩ : Fin cfg1.N).val % 625 = 0 := by dsimp only; omega
    rw [step_A V c ⟨625 * q + 0, h⟩ h0, bodyOut_at, pay1_apply, zero_add, Finset.sum_range_one]
    unfold addend; rw [dif_pos h]
  | j + 1, hj, h, y => by
    have hB : ¬(⟨625 * q + (j + 1), h⟩ : Fin cfg1.N).val % 625 = 0 := by dsimp only; omega
    rw [step_B V c ⟨625 * q + (j + 1), h⟩ hB, bodyOut_at, Finset.sum_range_succ,
      outsAt_irrel V c _ (625 * q + j) _ (Nat.lt_of_succ_lt h) (by dsimp only; omega),
      outsAt_closed c q j (Nat.lt_of_succ_lt hj) (Nat.lt_of_succ_lt h) y]
    unfold addend; rw [dif_pos h]

/-- What the array ends holding at (core k, node row n, feature f). -/
def cell (c : Dev nD) (k : Fin 2) (n : Fin 20480) (f : Fin 128) : EReal :=
  ∑ s : Fin 625, ∑ e : Fin 512,
    if rowsOf V c (ix1 (edgeOf k s e)) = BitVec.ofNat 32 n.val then
      (∑ n' : Fin 20480, if colsOf V c (ix1 (edgeOf k s e)) = BitVec.ofNat 32 n'.val then tableOf V c (ix2 n' f) else 0)
    else 0

/-- It depends on the three coordinates' values only. -/
theorem cell_congr (c : Dev nD) {k k' : Fin 2} {n n' : Fin 20480} {f f' : Fin 128} (hk : k.val = k'.val)
    (hn : n.val = n'.val) (hf : f.val = f'.val) : cell V c k n f = cell V c k' n' f' := by
  obtain rfl := Fin.ext hk; obtain rfl := Fin.ext hn; obtain rfl := Fin.ext hf; rfl

/-- After the last point of core k's run the block holds the core's whole sum. -/
theorem outsAt_last (c : Dev nD) (k : Fin 2) (h : 625 * k.val + 624 < cfg1.N) (y : S1x20480x128.Idx) :
    outsAt1 V c (625 * k.val + 624) h y
      = cell V c k (⟨(y 1).val, (y 1).isLt⟩ : Fin 20480) (⟨(y 2).val, (y 2).isLt⟩ : Fin 128) := by
  have hN : cfg1.N = 1250 := N_1
  rw [outsAt_closed V c k.val 624 (by omega) h y, Finset.sum_range]
  unfold cell
  refine Finset.sum_congr rfl fun s _ => ?_
  have hs : 625 * k.val + s.val < cfg1.N := by have := s.isLt; have := k.isLt; omega
  unfold addend
  rw [dif_pos hs]
  unfold contrib
  refine Finset.sum_congr rfl fun e _ => ?_
  rw [rowblk_apply V c ⟨625 * k.val + s.val, hs⟩ e (edgeOf k s e) rfl,
    colblk_apply V c ⟨625 * k.val + s.val, hs⟩ e (edgeOf k s e) rfl, tabblk_eq]

/-- The same at a point t ≡ 624 (mod 625), named by itself. -/
theorem outsAt_flush (c : Dev nD) (t : Fin cfg1.N) (h624 : t.val % 625 = 624) (hk : t.val / 625 < 2)
    (y : S1x20480x128.Idx) :
    outsAt1 V c t.val t.isLt y
      = cell V c (⟨t.val / 625, hk⟩ : Fin 2) (⟨(y 1).val, (y 1).isLt⟩ : Fin 20480) (⟨(y 2).val, (y 2).isLt⟩ : Fin 128) := by
  have hN : cfg1.N = 1250 := N_1
  have ht := t.isLt
  have e : t.val = 625 * (t.val / 625) + 624 := by omega
  rw [outsAt_irrel V c t.val (625 * (t.val / 625) + 624) t.isLt (by omega) e]
  exact outsAt_last V c ⟨t.val / 625, hk⟩ _ y

/-- The array the run leaves, as a function of the index. -/
def arr (c : Dev nD) : S2x20480x128.Idx → EReal := fun i =>
  cell V c (⟨(i 0).val, (i 0).isLt⟩ : Fin 2) (⟨(i 1).val, (i 1).isLt⟩ : Fin 20480) (⟨(i 2).val, (i 2).isLt⟩ : Fin 128)

/-- What a flushing point writes back is its block of that array. -/
theorem flushed_eq (c : Dev nD) (t : Fin cfg1.N) (hf : (cfg1.win 3).flush t = true) :
    (dat1 V c).flushed 3 t = ((cfg1.win 3).blk t).view.read (Elt Ideal) (arr V c) := by
  have hN : cfg1.N = 1250 := N_1
  have ht := t.isLt
  have h624 : t.val % 625 = 624 := (flush1_3 t).mp hf
  have hk : t.val / 625 < 2 := by omega
  show (cfg1.win 3).cut (grid1.coords t) ((dat1 V c).after 3 t) = _
  rw [after1_3]
  funext x
  rw [View.read_apply]
  show outsAt1 V c t.val t.isLt x = arr V c (((cfg1.win 3).blk t).view.emb x)
  rw [outsAt_flush V c t h624 hk x]
  unfold arr
  have h0 : (x 0 : ℕ) < 1 := (x 0).isLt
  refine cell_congr V c ?_ ?_ ?_
  · show t.val / 625 = win1_3.index t 0 * 1 + 1 * (x 0).val
    rw [(idx3 t).1]; omega
  · show (x 1).val = win1_3.index t 1 * 20480 + 1 * (x 1).val
    rw [(idx3 t).2.1]; omega
  · show (x 2).val = win1_3.index t 2 * 128 + 1 * (x 2).val
    rw [(idx3 t).2.2]; omega

/-- The two flushing points' blocks are planes 0 and 1 of the array and cover it, so the array ends holding that function. -/
theorem final_arr (c : Dev nD) : (dat1 (F := Ideal) V c).arrAt 3 cfg1.N = arr V c := by
  have hN : cfg1.N = 1250 := N_1
  refine (dat1 V c).arrAt_eq_of_cover 3 (arr V c) (flushed_eq V c) fun i => ?_
  have h0 : (i 0 : ℕ) < 2 := (i 0).isLt
  have h1 : (i 1 : ℕ) < 20480 := (i 1).isLt
  have h2 : (i 2 : ℕ) < 128 := (i 2).isLt
  have hlt : 625 * (i 0 : ℕ) + 624 < cfg1.N := by omega
  refine ⟨⟨625 * (i 0 : ℕ) + 624, hlt⟩, (flush1_3 _).mpr (by dsimp only; omega), ?_⟩
  show i ∈ ((View.whole main_v6).slice (win1_3.rect ⟨625 * (i 0 : ℕ) + 624, hlt⟩)).set
  rw [View.set_slice_whole, Rect.mem_set_unit]
  intro a
  match a with
  | ⟨0, _⟩ =>
    show win1_3.index ⟨625 * (i 0 : ℕ) + 624, hlt⟩ 0 * 1 ≤ (i 0 : ℕ) ∧ (i 0 : ℕ) < win1_3.index ⟨625 * (i 0 : ℕ) + 624, hlt⟩ 0 * 1 + 1
    rw [(idx3 ⟨625 * (i 0 : ℕ) + 624, hlt⟩).1]; dsimp only; omega
  | ⟨1, _⟩ =>
    show win1_3.index ⟨625 * (i 0 : ℕ) + 624, hlt⟩ 1 * 20480 ≤ (i 1 : ℕ) ∧ (i 1 : ℕ) < win1_3.index ⟨625 * (i 0 : ℕ) + 624, hlt⟩ 1 * 20480 + 20480
    rw [(idx3 ⟨625 * (i 0 : ℕ) + 624, hlt⟩).2.1]; omega
  | ⟨2, _⟩ =>
    show win1_3.index ⟨625 * (i 0 : ℕ) + 624, hlt⟩ 2 * 128 ≤ (i 2 : ℕ) ∧ (i 2 : ℕ) < win1_3.index ⟨625 * (i 0 : ℕ) + 624, hlt⟩ 2 * 128 + 128
    rw [(idx3 ⟨625 * (i 0 : ℕ) + 624, hlt⟩).2.2]; omega

/-- The array the second kernel leaves: at (core, node row, feature) the core's edges' gathered rows summed at their
    destinations. -/
theorem final3 (c : Dev nD) :
    (dat1 (F := Ideal) V c).arrAt 3 cfg1.N
      = fun (i : S2x20480x128.Idx) =>
          ∑ s : Fin 625, ∑ e : Fin 512,
            if rowsOf V c (ix1 (edgeOf ⟨(i 0).val, (i 0).isLt⟩ s e)) = BitVec.ofNat 32 (i 1).val then
              (∑ n' : Fin 20480,
                if colsOf V c (ix1 (edgeOf ⟨(i 0).val, (i 0).isLt⟩ s e)) = BitVec.ofNat 32 n'.val then
                  tableOf V c (ix2 n' (⟨(i 2).val, (i 2).isLt⟩ : Fin 128)) else 0)
            else 0 := by
  exact final_arr V c

end Cert.KernelIdeal.Acc

end
-- ==== Proof.KLin.lean ====
/-
  The first kernel and the host operations before it.

  The host slices the edge list into its destination row (main_v1) and source row (main_v3) and pads the node features
  with 480 zero rows (main_v4). The first kernel multiplies, block of 2048 rows by block, the padded features with the
  weights: its result array (main_v5) at (k, f) is the inner product of padded row k with the weights' column f.
-/
import proofs.«426135_j59957743452553_2_alg».proof.Proof.Gen.KernelIdeal.Frame
import Idealize.ShloMosaic.Lib.Pipeline.Value
import Idealize.ShloMosaic.PureOps.Ideal.Laws
import Idealize.ShloMosaic.Lib.StableHlo.Run
import Idealize.ShloMosaic.Lib.ValueIdx
import Idealize.ShloMosaic.Lib.ValueLayout
import Idealize.ShloMosaic.Lib.KernelVsHost

noncomputable section

open scoped BigOperators

namespace Cert.KernelIdeal.Lin

open Idealize.ShloMosaic Idealize.ShloMosaic.ValueIdx Idealize.ShloMosaic.TcCoe Idealize.SL.Sem Cert.KernelIdeal Cert.KernelIdeal.Gen
open Idealize.ShloMosaic.Pipeline (Dat)

section Payload

/-- The product's operand indices at output index i and contraction index q, axis by axis: the left operand is read
    at (i 0, q), the right at (q, i 1). -/
theorem lhs_row (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs_col (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs_row (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs_col (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- One block's result at (r, f): the inner product of row r of the features' block with column f of the weights
    (the roundings to bf16 are the identity at the ideal values, the accumulator is the zero splat). -/
theorem block_apply (x0 : FVec Ideal S2048x256 .f32) (x1 : FVec Ideal S256x128 .f32) (y : S2048x128.Idx) :
    k0_pay1 (F := Ideal) x0 x1 y
      = ∑ k : Fin 256, x0 (ix2 (⟨(y 0).val, (y 0).isLt⟩ : Fin 2048) k) * x1 (ix2 k (⟨(y 1).val, (y 1).isLt⟩ : Fin 128)) := by
  unfold k0_pay1
  refine (Ideal.matmul_constant_zero_apply dot_S2048x256_S256x128_S2048x128_1_0_0_1_n_n none _ _ y).trans ?_
  rw [← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx y ((ValueIdx.contrEquiv1 dot_S2048x256_S256x128_S2048x128_1_0_0_1_n_n 256 rfl rfl).symm k)
      = ix2 (⟨(y 0).val, (y 0).isLt⟩ : Fin 2048) k := funext fun a => Fin.ext (by
    match a with
    | ⟨0, _⟩ => exact lhs_row _ _
    | ⟨1, _⟩ => exact (lhs_col _ _).trans hk)
  have er : dot_S2048x256_S256x128_S2048x128_1_0_0_1_n_n.rhsIdx y ((ValueIdx.contrEquiv1 dot_S2048x256_S256x128_S2048x128_1_0_0_1_n_n 256 rfl rfl).symm k)
      = ix2 k (⟨(y 1).val, (y 1).isLt⟩ : Fin 128) := funext fun a => Fin.ext (by
    match a with
    | ⟨0, _⟩ => exact (rhs_row _ _).trans hk
    | ⟨1, _⟩ => exact rhs_col _ _)
  rw [el, er, shapeCast_self]
  rfl

end Payload

section Region0
variable (V : (c : Dev nD) → (b : Ref sig .tc) → Buf (Elt Ideal) ((c : Thread nD τ).loc b))

/-- The padded features and the weights as the region finds them, at their literal types. -/
abbrev xpadOf (c : Dev nD) : FVec Ideal S20480x256 .f32 := V c main_v4
abbrev wOf (c : Dev nD) : FVec Ideal S256x128 .f32 := V c main_arg2

/-- Both offsets of a whole-block access are zero. -/
theorem offsets_zero : (![0, 0] : Fin 2 → Nat) = fun _ => 0 := funext fun a => by fin_cases a <;> rfl

/-- The matrix product of the padded features with the weights, entry by entry. -/
abbrev prodOf (c : Dev nD) : S20480x128.Idx → Ideal .f32 := fun i =>
  ∑ j : Fin 256, xpadOf V c (ix2 (⟨(i 0).val, (i 0).isLt⟩ : Fin 20480) j)
    * wOf V c (ix2 j (⟨(i 1).val, (i 1).isLt⟩ : Fin 128))

/-- The index maps over the grid: at point t the features' block and the result's block are block t of their row
    axes, the weights' block is the whole array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point t is rows 2048·t … 2048·t + 2047 of the padded features. -/
theorem xblock_apply (c : Dev nD) (t : Fin cfg0.N) (y : S2048x256.Idx) (i : S20480x256.Idx)
    (h0 : (i 0).val = 2048 * t.val + (y 0).val) (h1 : (i 1).val = (y 1).val) :
    (iblk0 V c 0 t : FVec Ideal S2048x256 .f32) y = xpadOf V c i := by
  obtain ⟨e0, e1, -, -, -, -⟩ := index_facts t
  unfold iblk0
  rw [View.read_apply]
  show V c main_v4 (((cfg0.win 0).blk t).view.emb y) = V c main_v4 i
  congr 1
  funext a
  apply Fin.ext
  match a with
  | ⟨0, _⟩ => show win0_0.index t (0 : Fin 2) * 2048 + 1 * (y 0).val = (i 0).val; omega
  | ⟨1, _⟩ => show win0_0.index t (1 : Fin 2) * 256 + 1 * (y 1).val = (i 1).val; omega

/-- The weights' block at every point is the whole weights array. -/
theorem wblock_apply (c : Dev nD) (t : Fin cfg0.N) (y : S256x128.Idx) (i : S256x128.Idx)
    (h0 : (i 0).val = (y 0).val) (h1 : (i 1).val = (y 1).val) :
    (iblk0 V c 1 t : FVec Ideal S256x128 .f32) y = wOf V c i := by
  obtain ⟨-, -, e2, e3, -, -⟩ := index_facts t
  unfold iblk0
  rw [View.read_apply]
  show V c main_arg2 (((cfg0.win 1).blk t).view.emb y) = V c main_arg2 i
  congr 1
  funext a
  apply Fin.ext
  match a with
  | ⟨0, _⟩ => show win0_1.index t (0 : Fin 2) * 256 + 1 * (y 0).val = (i 0).val; omega
  | ⟨1, _⟩ => show win0_1.index t (1 : Fin 2) * 128 + 1 * (y 1).val = (i 1).val; omega

/-- What point t writes back is block t of the matrix product. -/
theorem flushed_eq (c : Dev nD) (t : Fin cfg0.N) :
    (dat0 (F := Ideal) V c).flushed 2 t = ((cfg0.win 2).blk t).view.read (Elt Ideal) (prodOf V c) := by
  show (cfg0.win 2).cut (grid0.coords t) ((dat0 (F := Ideal) V c).after 2 t) = _
  rw [after0_2]
  unfold out0_2
  rw [View.canon_unit_zero offsets_zero]
  simp only [View.ld_unit_zero (S := S2048x256) offsets_zero, View.ld_unit_zero (S := S256x128) offsets_zero]
  obtain ⟨-, -, -, -, e4, e5⟩ := index_facts t
  funext y
  show k0_pay1 (F := Ideal) (iblk0 V c 0 t) (iblk0 V c 1 t) y = prodOf V c (((cfg0.win 2).blk t).view.emb y)
  have r0 : ((((cfg0.win 2).blk t).view.emb y) 0).val = 2048 * t.val + (y 0).val := by
    show win0_2.index t (0 : Fin 2) * 2048 + 1 * (y 0).val = _
    omega
  have r1 : ((((cfg0.win 2).blk t).view.emb y) 1).val = (y 1).val := by
    show win0_2.index t (1 : Fin 2) * 128 + 1 * (y 1).val = _
    omega
  refine (block_apply (iblk0 V c 0 t) (iblk0 V c 1 t) y).trans ?_
  refine Finset.sum_congr rfl fun k _ => ?_
  exact congrArg₂ (· * ·) (xblock_apply V c t _ _ r0 rfl) (wblock_apply V c t _ _ rfl r1)

/-- An index of the result array is in point t's block iff each coordinate is in the block's range on its axis. -/
theorem mem_block (t : Fin cfg0.N) (i : S20480x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v5).slice (win0_2.rect t)).set ↔ _
  rw [View.set_slice_whole, Rect.mem_set_unit]
  exact Iff.rfl

/-- Row r of the result array is in the block of point r / 2048, which is written back. -/
theorem covered (i : S20480x128.Idx) :
    ∃ t : Fin cfg0.N, (cfg0.win 2).flush t = true ∧ i ∈ ((cfg0.win 2).blk t).view.set := by
  have hi0 : (i 0).val < 20480 := (i 0).isLt
  have hi1 : (i 1).val < 128 := (i 1).isLt
  have hN : cfg0.N = 10 := N_0
  have hlt : (i 0).val / 2048 < cfg0.N := lt_of_lt_of_eq (by omega) hN.symm
  obtain ⟨-, -, -, -, e4, e5⟩ := index_facts ⟨(i 0).val / 2048, hlt⟩
  have e4' : win0_2.index ⟨(i 0).val / 2048, hlt⟩ (0 : Fin 2) = (i 0).val / 2048 := e4
  refine ⟨⟨(i 0).val / 2048, hlt⟩, flush0_2 _, ?_⟩
  rw [mem_block]
  intro a
  match a with
  | ⟨0, _⟩ =>
    show win0_2.index ⟨(i 0).val / 2048, hlt⟩ (0 : Fin 2) * 2048 ≤ (i 0).val
      ∧ (i 0).val < win0_2.index ⟨(i 0).val / 2048, hlt⟩ (0 : Fin 2) * 2048 + 2048
    omega
  | ⟨1, _⟩ =>
    show win0_2.index ⟨(i 0).val / 2048, hlt⟩ (1 : Fin 2) * 128 ≤ (i 1).val
      ∧ (i 1).val < win0_2.index ⟨(i 0).val / 2048, hlt⟩ (1 : Fin 2) * 128 + 128
    omega

/-- The array the first kernel leaves, from the memory `V` the region is entered with: the matrix product of the padded
    features (main_v4) with the weights (main_arg2). -/
theorem final2 (c : Dev nD) :
    (dat0 (F := Ideal) V c).arrAt 2 cfg0.N
      = fun (i : S20480x128.Idx) =>
          ∑ j : Fin 256, xpadOf V c (ix2 (⟨(i 0).val, (i 0).isLt⟩ : Fin 20480) j)
            * wOf V c (ix2 j (⟨(i 1).val, (i 1).isLt⟩ : Fin 128)) :=
  (dat0 (F := Ideal) V c).arrAt_eq_of_cover 2 (prodOf V c) (fun t _ => flushed_eq V c t) covered

end Region0

section Host
variable (m : (ℓ : Loc nD τ sig) → Buf (Elt Ideal) ℓ) (ρ : Dev nD → PrngReg)

/-- The launch memory's arrays at their literal types. -/
abbrev eiOf (c : Dev nD) : IVec S2x640000 32 := m ((c : Thread nD τ).loc main_arg1)
abbrev xOf (c : Dev nD) : FVec Ideal S20000x256 .f32 := m ((c : Thread nD τ).loc main_arg0)
/-- The first kernel's entry memory at three of its buffers, at their literal types. -/
abbrev rows2 (c : Dev nD) : IVec S640000 32 := V2 m ρ c main_v1
abbrev cols2 (c : Dev nD) : IVec S640000 32 := V2 m ρ c main_v3
abbrev xpad2 (c : Dev nD) : FVec Ideal S20480x256 .f32 := V2 m ρ c main_v4

/-- Row r of a two-row array, cut out as a one-row array and flattened, reads the array at (r, k) at k. -/
theorem row_apply (e : IVec S2x640000 32) (r : Fin 2) (off : Fin 2 → Nat) (h : S2x640000.Slices off S1x640000)
    (h0 : off 0 = r.val) (h1 : off 1 = 0) (i : S640000.Idx) :
    shapeCast S640000 (extractStridedSlice S1x640000 off e h) shapeCasts_S1x640000_S640000 i
      = e (ix2 r (⟨(i 0).val, (i 0).isLt⟩ : Fin 640000)) := by
  refine (shapeCast_apply _ shapeCasts_S1x640000_S640000 i
    (ix2 (0 : Fin 1) (⟨(i 0).val, (i 0).isLt⟩ : Fin 640000)) ?_).trans ?_
  · rewrite [Shape.rowMajor_val_two, Shape.rowMajor_val_one]
    show 0 * 640000 + (i 0).val = (i 0).val
    omega
  · exact extractStridedSlice_apply off e h _ _ (fun a => match a with
      | ⟨0, _⟩ => by show r.val = off 0 + 0; omega
      | ⟨1, _⟩ => by show (i 0).val = off 1 + (i 0).val; omega)

/-- The second stretch of host operations writes neither slice of the edge list. -/
theorem W2_main_v1 (c : Dev nD) : W2 m ρ c (Proc.devRef .tc main_v1) = W1 m ρ c (Proc.devRef .tc main_v1) :=
  StableHlo.after_of_forall_not_mem (b := Proc.devRef .tc main_v1) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W2_main_v3 (c : Dev nD) : W2 m ρ c (Proc.devRef .tc main_v3) = W1 m ρ c (Proc.devRef .tc main_v3) :=
  StableHlo.after_of_forall_not_mem (b := Proc.devRef .tc main_v3) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The first stretch leaves in main_v1 the flattened slice of row 0 of the edge list, in main_v3 that of row 1. -/
theorem W1_main_v1 (c : Dev nD) : (W1 m ρ c (Proc.devRef .tc main_v1) : IVec S640000 32)
    = shapeCast S640000 (extractStridedSlice S1x640000 ![0, 0] (eiOf m c) slices_S2x640000_S1x640000_0_0) shapeCasts_S1x640000_S640000 := by
  show StableHlo.after hostOps0 (W0 m ρ c) (Proc.devRef .tc main_v1) = _
  after_results
  rfl
theorem W1_main_v3 (c : Dev nD) : (W1 m ρ c (Proc.devRef .tc main_v3) : IVec S640000 32)
    = shapeCast S640000 (extractStridedSlice S1x640000 ![1, 0] (eiOf m c) slices_S2x640000_S1x640000_1_0) shapeCasts_S1x640000_S640000 := by
  show StableHlo.after hostOps0 (W0 m ρ c) (Proc.devRef .tc main_v3) = _
  after_results
  rfl

/-- Entering the first kernel, main_v1 holds the edge list's row 0 (the destinations), -/
theorem V2_rows (c : Dev nD) :
    rows2 m ρ c = fun i => eiOf m c (ix2 (0 : Fin 2) (⟨(i 0).val, (i 0).isLt⟩ : Fin 640000)) := by
  show W2 m ρ c (Proc.devRef .tc main_v1) = _
  rw [W2_main_v1, W1_main_v1]
  funext i
  exact row_apply (eiOf m c) 0 ![0, 0] slices_S2x640000_S1x640000_0_0 rfl rfl i

/-- main_v3 its row 1 (the sources), -/
theorem V2_cols (c : Dev nD) :
    cols2 m ρ c = fun i => eiOf m c (ix2 (1 : Fin 2) (⟨(i 0).val, (i 0).isLt⟩ : Fin 640000)) := by
  show W2 m ρ c (Proc.devRef .tc main_v3) = _
  rw [W2_main_v3, W1_main_v3]
  funext i
  exact row_apply (eiOf m c) 1 ![1, 0] slices_S2x640000_S1x640000_1_0 rfl rfl i

/-- The second stretch leaves in main_v4 the features padded with the converted integer zero. -/
theorem W2_main_v4 (c : Dev nD) : (W2 m ρ c (Proc.devRef .tc main_v4) : FVec Ideal S20480x256 .f32)
    = pad S20480x256 ![0, 0] ![480, 0] ![0, 0] (xOf m c) (sitofp (F := Ideal) .f32 (constantI S_ 32 0#32))
        pads_S20000x256_S20480x256_04800_000 h_S_ := by
  show StableHlo.after hostOps0_1 (W1 m ρ c) (Proc.devRef .tc main_v4) = _
  after_results
  rfl

/-- main_v4 the features with 480 zero rows appended, -/
theorem V2_xpad (c : Dev nD) :
    xpad2 m ρ c = fun i => if h : (i 0).val < 20000 then
          xOf m c (ix2 (⟨(i 0).val, h⟩ : Fin 20000) (⟨(i 1).val, (i 1).isLt⟩ : Fin 256))
        else 0 := by
  show W2 m ρ c (Proc.devRef .tc main_v4) = _
  rw [W2_main_v4]
  funext i
  by_cases h : (i 0).val < 20000
  · rw [dif_pos h]
    exact pad_apply_of_inside ![0, 0] ![480, 0] ![0, 0] (xOf m c) _ pads_S20000x256_S20480x256_04800_000 h_S_ i
      (ix2 (⟨(i 0).val, h⟩ : Fin 20000) (⟨(i 1).val, (i 1).isLt⟩ : Fin 256)) (fun a => match a with
        | ⟨0, _⟩ => by show (i 0).val = 0 + (i 0).val * (0 + 1); omega
        | ⟨1, _⟩ => by show (i 1).val = 0 + (i 1).val * (0 + 1); omega)
  · rw [dif_neg h]
    refine (pad_apply_of_not_inside ![0, 0] ![480, 0] ![0, 0] (xOf m c) _ pads_S20000x256_S20480x256_04800_000 h_S_ i 0 ?_).trans ?_
    · show ¬(0 ≤ (i 0).val ∧ ((i 0).val - 0) % (0 + 1) = 0 ∧ ((i 0).val - 0) / (0 + 1) < 20000)
      omega
    · exact sitofp_zero

/-- and the weights are as launched. -/
theorem V2_w (c : Dev nD) : V2 m ρ c main_arg2 = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

end Host

end Cert.KernelIdeal.Lin

end
-- ==== Proof.KPost.lean ====
/-
  The host operations after the second kernel: the two cores' partial sums (planes 0 and 1 of main_v6) are added, the
  first 20000 rows kept, the bias added along the feature axis, and the rectifier applied.
-/
import proofs.«426135_j59957743452553_2_alg».proof.Proof.Gen.KernelIdeal.Frame
import Idealize.ShloMosaic.Lib.Pipeline.Value
import Idealize.ShloMosaic.PureOps.Ideal.Laws
import Idealize.ShloMosaic.Lib.StableHlo.Run
import Idealize.ShloMosaic.Lib.ValueLayout

noncomputable section

open scoped BigOperators

namespace Cert.KernelIdeal.Post

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-- The second kernel's result array at the boundary before the last stretch, the bias as launched, and the result
    buffer at the last boundary, at their literal types. -/
abbrev parts4 (c : Dev nD) : FVec Ideal S2x20480x128 .f32 := W4 m ρ c (Proc.devRef .tc main_v6)
abbrev biasOf (c : Dev nD) : FVec Ideal S128 .f32 := m ((c : Thread nD τ).loc main_arg3)
abbrev result5 (c : Dev nD) : FVec Ideal S20000x128 .f32 := W5 m ρ c (Proc.devRef .tc main_v17)

/-- The host operations after the second kernel, composed: from the second kernel's result array and the bias to the
    result. -/
def postVal (parts : FVec Ideal S2x20480x128 .f32) (bias : FVec Ideal S128 .f32) : FVec Ideal S20000x128 .f32 :=
  maximumf
    (addf
      (extractStridedSlice S20000x128 ![0, 0]
        (addf
          (shapeCast S20480x128 (extractStridedSlice S1x20480x128 ![0, 0, 0] parts slices_S2x20480x128_S1x20480x128_0_0_0)
            shapeCasts_S1x20480x128_S20480x128)
          (shapeCast S20480x128 (extractStridedSlice S1x20480x128 ![1, 0, 0] parts slices_S2x20480x128_S1x20480x128_1_0_0)
            shapeCasts_S1x20480x128_S20480x128))
        slices_S20480x128_S20000x128_0_0)
      (broadcastInDim S20000x128 ![0, 1] bcast_S1x128_S20000x128_0_1
        (broadcastInDim S1x128 ![1] bcast_S128_S1x128_1 bias)))
    (broadcastInDim S20000x128 ![] bcast_S_S20000x128 (constant (F := Ideal) S_ .f32 0x00000000#32))

/-- Plane 0 of the result array with its unit axis dropped, at an index. -/
theorem plane0_apply (parts : FVec Ideal S2x20480x128 .f32) (j : S20480x128.Idx) :
    shapeCast S20480x128 (extractStridedSlice S1x20480x128 ![0, 0, 0] parts slices_S2x20480x128_S1x20480x128_0_0_0)
        shapeCasts_S1x20480x128_S20480x128 j
      = parts (ix3 (0 : Fin 2) (⟨(j 0).val, (j 0).isLt⟩ : Fin 20480) (⟨(j 1).val, (j 1).isLt⟩ : Fin 128)) := by
  refine (shapeCast_dropUnit_apply ![20480, 128] _ shapeCasts_S1x20480x128_S20480x128 j).trans ?_
  exact extractStridedSlice_apply ![0, 0, 0] parts slices_S2x20480x128_S1x20480x128_0_0_0 _ _ (fun a => match a with
    | ⟨0, _⟩ => rfl
    | ⟨1, _⟩ => by show (j 0).val = 0 + (j 0).val; omega
    | ⟨2, _⟩ => by show (j 1).val = 0 + (j 1).val; omega)

/-- Plane 1 of the result array with its unit axis dropped, at an index. -/
theorem plane1_apply (parts : FVec Ideal S2x20480x128 .f32) (j : S20480x128.Idx) :
    shapeCast S20480x128 (extractStridedSlice S1x20480x128 ![1, 0, 0] parts slices_S2x20480x128_S1x20480x128_1_0_0)
        shapeCasts_S1x20480x128_S20480x128 j
      = parts (ix3 (1 : Fin 2) (⟨(j 0).val, (j 0).isLt⟩ : Fin 20480) (⟨(j 1).val, (j 1).isLt⟩ : Fin 128)) := by
  refine (shapeCast_dropUnit_apply ![20480, 128] _ shapeCasts_S1x20480x128_S20480x128 j).trans ?_
  exact extractStridedSlice_apply ![1, 0, 0] parts slices_S2x20480x128_S1x20480x128_1_0_0 _ _ (fun a => match a with
    | ⟨0, _⟩ => rfl
    | ⟨1, _⟩ => by show (j 0).val = 0 + (j 0).val; omega
    | ⟨2, _⟩ => by show (j 1).val = 0 + (j 1).val; omega)

/-- The first 20000 rows, at an index: the same row and column. -/
theorem rows_apply (x : FVec Ideal S20480x128 .f32) (i : S20000x128.Idx) :
    extractStridedSlice S20000x128 ![0, 0] x slices_S20480x128_S20000x128_0_0 i
      = x (ix2 (⟨(i 0).val, Nat.lt_trans (i 0).isLt (by decide)⟩ : Fin 20480) (⟨(i 1).val, (i 1).isLt⟩ : Fin 128)) :=
  extractStridedSlice_apply ![0, 0] x slices_S20480x128_S20000x128_0_0 i _ (fun a => match a with
    | ⟨0, _⟩ => by show (i 0).val = 0 + (i 0).val; omega
    | ⟨1, _⟩ => by show (i 1).val = 0 + (i 1).val; omega)

/-- The bias broadcast along the rows, at an index: the bias at the column. -/
theorem bias_apply (bias : FVec Ideal S128 .f32) (i : S20000x128.Idx) :
    broadcastInDim S20000x128 ![0, 1] bcast_S1x128_S20000x128_0_1 (broadcastInDim S1x128 ![1] bcast_S128_S1x128_1 bias) i
      = bias (ix1 (⟨(i 1).val, (i 1).isLt⟩ : Fin 128)) := by
  refine (broadcastInDim_apply _ bcast_S1x128_S20000x128_0_1 _ i
    (ix2 (⟨0, Nat.one_pos⟩ : Fin 1) (⟨(i 1).val, (i 1).isLt⟩ : Fin 128)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ bcast_S128_S1x128_1 bias _ _ (fun a => match a with
    | ⟨0, _⟩ => by show (i 1).val = if (128 : Nat) = 1 then 0 else (i 1).val; rw [if_neg (by decide)])

/-- The zero constant broadcast, at an index: zero. -/
theorem zero_apply (i : S20000x128.Idx) :
    broadcastInDim S20000x128 ![] bcast_S_S20000x128 (constant (F := Ideal) S_ .f32 0x00000000#32) i = 0 := by
  refine (broadcastInDim_apply _ bcast_S_S20000x128 _ i (fun a => a.elim0) (fun a => a.elim0)).trans ?_
  exact (constant_apply _ _).trans Ideal.ofBits_zero_f32

/-- The composed host operations at an index. -/
theorem postVal_apply (parts : FVec Ideal S2x20480x128 .f32) (bias : FVec Ideal S128 .f32) (i : S20000x128.Idx) :
    postVal parts bias i
      = max ((parts (ix3 (0 : Fin 2) (⟨(i 0).val, Nat.lt_trans (i 0).isLt (by decide)⟩ : Fin 20480) (⟨(i 1).val, (i 1).isLt⟩ : Fin 128))
              + parts (ix3 (1 : Fin 2) (⟨(i 0).val, Nat.lt_trans (i 0).isLt (by decide)⟩ : Fin 20480) (⟨(i 1).val, (i 1).isLt⟩ : Fin 128)))
             + bias (ix1 (⟨(i 1).val, (i 1).isLt⟩ : Fin 128))) 0 := by
  unfold postVal
  rw [maximumf_apply, addf_apply, rows_apply, addf_apply, plane0_apply, plane1_apply, bias_apply, zero_apply]

/-- The bias buffer at the boundary before the last stretch is the launch memory's: no region and no host operation
    before it writes the bias. -/
theorem W4_bias (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result buffer at the last boundary is the composed host operations of the second kernel's result array and the
    bias buffer there. -/
theorem result5_eq (c : Dev nD) :
    result5 m ρ c = postVal (W4 m ρ c (Proc.devRef .tc main_v6)) (W4 m ρ c (Proc.devRef .tc main_arg3)) := by
  show StableHlo.after hostOps2 (W4 m ρ c) (Proc.devRef .tc main_v17) = _
  after_results
  rfl

/-- The result buffer at the last boundary, from the second kernel's result array and the bias. -/
theorem W5_result (c : Dev nD) :
    result5 m ρ c
      = fun i =>
          max ((parts4 m ρ c (ix3 (0 : Fin 2) (⟨(i 0).val, Nat.lt_trans (i 0).isLt (by decide)⟩ : Fin 20480) (⟨(i 1).val, (i 1).isLt⟩ : Fin 128))
                + parts4 m ρ c (ix3 (1 : Fin 2) (⟨(i 0).val, Nat.lt_trans (i 0).isLt (by decide)⟩ : Fin 20480) (⟨(i 1).val, (i 1).isLt⟩ : Fin 128)))
               + biasOf m c (ix1 (⟨(i 1).val, (i 1).isLt⟩ : Fin 128))) 0 := by
  rw [result5_eq m ρ c, W4_bias m ρ c]
  funext i
  exact postVal_apply _ _ i

end Cert.KernelIdeal.Post

end
-- ==== Proof.KValue.lean ====
/-
  The kernel program's result, end to end: the layer of the specification.

  The host operations after the second kernel add the two cores' partial sums, keep the first 20000 rows, add the bias
  and rectify. Each partial sum is, at node row n and feature f, the sum over the core's edges with destination word n of
  the padded table's row named by the edge's source word; the padded table is the matrix product of the zero-padded
  features with the weights. When every source word is a node (below 20000) the row it names is a row of the unpadded
  product, the linear layer's; and the two cores' 625 steps of 512 lanes are the 640000 edges, each once.
-/
import proofs.«426135_j59957743452553_2_alg».proof.Proof.Spec
import proofs.«426135_j59957743452553_2_alg».proof.Proof.SumMath
import proofs.«426135_j59957743452553_2_alg».proof.Proof.KAcc
import proofs.«426135_j59957743452553_2_alg».proof.Proof.KLin
import proofs.«426135_j59957743452553_2_alg».proof.Proof.KPost
import proofs.«426135_j59957743452553_2_alg».proof.Proof.KRun

noncomputable section

open scoped BigOperators

namespace Cert.KernelIdeal.Value

open Idealize.ShloMosaic Idealize.ShloMosaic.ValueIdx Idealize.ShloMosaic.TcCoe Idealize.SL.Sem Cert.KernelIdeal Cert.KernelIdeal.Gen
open Cert.GraphConv

variable (m : (ℓ : Loc nD τ sig) → Buf (Elt Ideal) ℓ) (ρ : Dev nD → PrngReg)

/-- The weights as launched, at their literal type. -/
abbrev wArr (c : Dev nD) : FVec Ideal S256x128 .f32 := m ((c : Thread nD τ).loc main_arg2)

/-- Entering the second kernel the destinations are the edge list's row 0: the first kernel does not touch main_v1. -/
theorem rows3 (c : Dev nD) :
    Acc.rowsOf (V3 m ρ) c = fun i => Lin.eiOf m c (ix2 (0 : Fin 2) (⟨(i 0).val, (i 0).isLt⟩ : Fin 640000)) :=
  (W3_of_ne m ρ c main_v1 (by decide)).trans (Lin.V2_rows m ρ c)

/-- And the sources its row 1. -/
theorem cols3 (c : Dev nD) :
    Acc.colsOf (V3 m ρ) c = fun i => Lin.eiOf m c (ix2 (1 : Fin 2) (⟨(i 0).val, (i 0).isLt⟩ : Fin 640000)) :=
  (W3_of_ne m ρ c main_v3 (by decide)).trans (Lin.V2_cols m ρ c)

/-- The table the second kernel reads is the first kernel's result array: padded features times weights. -/
theorem table3 (c : Dev nD) :
    Acc.tableOf (V3 m ρ) c = fun i =>
      ∑ j : Fin 256,
        (if h : (i 0).val < 20000 then Lin.xOf m c (ix2 (⟨(i 0).val, h⟩ : Fin 20000) j) else 0)
          * wArr m c (ix2 j (⟨(i 1).val, (i 1).isLt⟩ : Fin 128)) := by
  have h1 : Acc.tableOf (V3 m ρ) c = (dat0 (F := Ideal) (V2 m ρ) c).arrAt 2 cfg0.N := W3_arr m ρ c 2
  rw [h1, Lin.final2 (V2 m ρ) c]
  funext i
  refine Finset.sum_congr rfl fun j _ => ?_
  have hx : Lin.xpadOf (V2 m ρ) c = Lin.xpad2 m ρ c := rfl
  have hw : Lin.wOf (V2 m ρ) c = wArr m c := Lin.V2_w m ρ c
  rw [hx, hw, Lin.V2_xpad m ρ c]

/-- A source word that is a node names, in the padded table, the linear layer's row at that node. -/
theorem gather_row (c : Dev nD) (hsrc : SrcInRange (Lin.eiOf m c)) (E : Fin 640000) (f : Fin 128) :
    (∑ n' : Fin 20480,
        if Lin.eiOf m c (ix2 (1 : Fin 2) E) = BitVec.ofNat 32 n'.val then
          (∑ j : Fin 256,
            (if h : n'.val < 20000 then Lin.xOf m c (ix2 (⟨n'.val, h⟩ : Fin 20000) j) else 0) * wArr m c (ix2 j f))
        else 0)
      = lin (Lin.xOf m c) (wArr m c) (srcNode (Lin.eiOf m c) E) f := by
  have hlt : (Lin.eiOf m c (ix2 (1 : Fin 2) E)).toNat < 20000 := hsrc E
  rw [sum_word_eq (N := 20480) (by norm_num) _ (by omega)]
  unfold lin srcNode
  refine Finset.sum_congr rfl fun j _ => ?_
  rw [dif_pos hlt]
  congr 2
  exact congrArg (fun k => ix2 k j) (Fin.ext (by
    show (Lin.eiOf m c (ix2 (1 : Fin 2) E)).toNat = min (Lin.eiOf m c (ix2 (1 : Fin 2) E)).toNat 19999
    omega))

/-- One core's partial sum at node row `n`, feature `f`. -/
theorem parts_apply (c : Dev nD) (hsrc : SrcInRange (Lin.eiOf m c)) (k : Fin 2) (n : Fin 20480) (f : Fin 128) :
    Post.parts4 m ρ c (ix3 k n f)
      = ∑ s : Fin 625, ∑ e : Fin 512,
          if Lin.eiOf m c (ix2 (0 : Fin 2) (Acc.edgeOf k s e)) = BitVec.ofNat 32 n.val then
            lin (Lin.xOf m c) (wArr m c) (srcNode (Lin.eiOf m c) (Acc.edgeOf k s e)) f
          else 0 := by
  have h1 : Post.parts4 m ρ c = (dat1 (F := Ideal) (V3 m ρ) c).arrAt 3 cfg1.N := W4_arr m ρ c 3
  rw [h1, Acc.final3 (V3 m ρ) c, rows3, cols3, table3]
  refine Finset.sum_congr rfl fun s _ => Finset.sum_congr rfl fun e _ => ?_
  show (if Lin.eiOf m c (ix2 (0 : Fin 2) (Acc.edgeOf k s e)) = BitVec.ofNat 32 n.val then _ else 0) = _
  refine congrArg (fun t => if Lin.eiOf m c (ix2 (0 : Fin 2) (Acc.edgeOf k s e)) = BitVec.ofNat 32 n.val then t else 0) ?_
  exact gather_row m c hsrc (Acc.edgeOf k s e) f

/-- THE RESULT: the layer. -/
theorem result_eq (c : Dev nD) (hsrc : SrcInRange (Lin.eiOf m c)) :
    Post.result5 m ρ c = layer (Lin.xOf m c) (Lin.eiOf m c) (wArr m c) (Post.biasOf m c) := by
  rw [Post.W5_result]
  funext i
  obtain ⟨n, f, rfl⟩ : ∃ (n : Fin 20000) (f : Fin 128), i = ix2 n f := ⟨i 0, i 1, eq_ix2 i⟩
  unfold layer agg
  show max ((Post.parts4 m ρ c (ix3 (0 : Fin 2) (⟨n.val, _⟩ : Fin 20480) f) + Post.parts4 m ρ c (ix3 (1 : Fin 2) (⟨n.val, _⟩ : Fin 20480) f))
      + Post.biasOf m c (ix1 f)) 0 = max (_ + Post.biasOf m c (ix1 f)) 0
  rw [parts_apply m ρ c hsrc, parts_apply m ρ c hsrc,
    ← sum_edges (fun E => if Lin.eiOf m c (ix2 (0 : Fin 2) E) = BitVec.ofNat 32 n.val then
        lin (Lin.xOf m c) (wArr m c) (srcNode (Lin.eiOf m c) E) f else 0),
    Fin.sum_univ_two]

/-- The run, read: the result buffer ends at the layer of the launch arrays, which end as launched. -/
theorem run (hsrc : ∀ c : Dev nD, SrcInRange (Lin.eiOf m c)) :
    θ_run defs (onTc (τ := τ) (main (F := Ideal))) ⟨m, fun _ => 0, ρ⟩ (fun r => ∀ c : Dev nD,
      r.2.mem ((c.tc : Thread nD τ).loc main_v17)
          = layer (Lin.xOf m c) (Lin.eiOf m c) (wArr m c) (Post.biasOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c (hsrc c)), (h c).2⟩) (run_result m ρ)

end Cert.KernelIdeal.Value

end
-- ==== Proof.Ref.lean ====
/-
  The reference computes the layer: its dot_general is the linear layer's inner product, its gather reads the row
  the (wrapped, clamped) source word names — the word itself when it is a node —, and its accumulating scatter sums, at
  each node, the gathered rows of the edges whose destination word is that node; the bias and the rectifier follow.
-/
import proofs.«426135_j59957743452553_2_alg».proof.Proof.Spec
import proofs.«426135_j59957743452553_2_alg».proof.Proof.Gen.ReferenceIdeal.Read
import Idealize.ShloMosaic.PureOps.Dims
import Idealize.ShloMosaic.PureOps.ShapeOps
import Idealize.ShloMosaic.PureOps.Contract
import Idealize.ShloMosaic.PureOps.Ideal
import Idealize.ShloMosaic.PureOps.Ideal.Laws
import Idealize.ShloMosaic.Lib.ValueIdx
import Mathlib.Algebra.BigOperators.Group.Finset.Basic
import Mathlib.Algebra.BigOperators.Group.Finset.Piecewise

noncomputable section

open scoped BigOperators

namespace Cert.ReferenceIdeal.RefValue

open Idealize.ShloMosaic Idealize.ShloMosaic.ValueIdx Cert.ReferenceIdeal Cert.ReferenceIdeal.Gen Cert.ReferenceIdeal.Read

/-- The reference's gather dimension numbers and its scatter dimension numbers. -/
abbrev gd := gather_S20000x128_S640000x1_S640000x128_1_0_n_n_0_1_1128
abbrev sd := scatter_S20000x128_S640000x1_S640000x128_1_0_0_1

/-- The gather read at `(e, f)`: the operand's row named by start index `e` (read signed, clamped into the nodes), column `f`. -/
theorem gather_apply {α : Type} {w : Nat} (x : S20000x128.Idx → α) (idx : IVec S640000x1 w) (e : Fin 640000) (f : Fin 128) :
    Host.gather gd x idx (ix2 e f)
      = x (ix2 (⟨min (idx (ix2 e (0 : Fin 1))).toInt.toNat 19999, by omega⟩ : Fin 20000) f) := by
  have hsi : gd.siIdx (ix2 e f) ⟨List.idxOf (0 : Fin 2) gd.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  have h0 : gd.start (ix2 e f) idx 0 + gd.batchCoord (ix2 e f) 0 + gd.offCoord (ix2 e f) 0
      = min (idx (ix2 e (0 : Fin 1))).toInt.toNat 19999 := by
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gd.startIndexMap from List.mem_singleton.mpr rfl), hsi]
    rfl
  have h1 : gd.start (ix2 e f) idx 1 + gd.batchCoord (ix2 e f) 1 + gd.offCoord (ix2 e f) 1 = f.val := by
    rw [GatherDims.batchCoord_eq_zero _ _ _ List.not_mem_nil]
    unfold GatherDims.start
    rw [dif_neg (by decide)]
    unfold GatherDims.offCoord
    rw [dif_pos (by decide), Nat.zero_add]
    rfl
  unfold Host.gather
  congr 1
  funext a
  refine Fin.ext ?_
  match a with
  | ⟨0, _⟩ => exact h0
  | ⟨1, _⟩ => exact h1

/-- Where update `(e, f')` lands: at `(n, f)` exactly when the scatter index of `e`, read signed, is `n` and `f' = f`. -/
theorem resultIdx_eq_some_iff {w : Nat} (idx : IVec S640000x1 w) (e : Fin 640000) (f' : Fin 128) (n : Fin 20000) (f : Fin 128) :
    sd.resultIdx? (ix2 e f') idx = some (ix2 n f) ↔ (idx (ix2 e (0 : Fin 1))).toInt = (n.val : Int) ∧ f' = f := by
  have hsi : sd.siIdx (ix2 e f') ⟨List.idxOf (0 : Fin 2) sd.scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  have hs0 : sd.start (ix2 e f') idx 0 = (idx (ix2 e (0 : Fin 1))).toInt := by
    unfold ScatterDims.start
    rw [dif_pos (show (0 : Fin 2) ∈ sd.scatterDimsToOperandDims from List.mem_singleton.mpr rfl), hsi]
  have hs1 : sd.start (ix2 e f') idx 1 = 0 := by
    unfold ScatterDims.start
    rw [dif_neg (by decide)]
  have hw0 : sd.window (ix2 e f') 0 = 0 := by
    unfold ScatterDims.window
    rw [dif_neg (by decide)]
  have hw1 : sd.window (ix2 e f') 1 = f'.val := by
    unfold ScatterDims.window
    rw [dif_pos (by decide)]
    rfl
  have hn := n.isLt
  have hf := f.isLt
  have hf' := f'.isLt
  unfold ScatterDims.resultIdx?
  split
  · rename_i hall
    constructor
    · intro he
      have hfun := Option.some.inj he
      have e0 := congrArg Fin.val (congrFun hfun 0)
      have e1 := congrArg Fin.val (congrFun hfun 1)
      have a0 := hall 0
      have a1 := hall 1
      rw [hs0, hw0] at a0
      rw [hs1, hw1] at a1
      simp only [hs0, hw0, hs1, hw1] at e0 e1
      have e0' : ((idx (ix2 e (0 : Fin 1))).toInt + ((0 : Nat) : Int)).toNat = n.val := e0
      have e1' : (0 + (f'.val : Int)).toNat = f.val := e1
      refine ⟨by omega, Fin.ext (by omega)⟩
    · rintro ⟨h0, h1⟩
      congr 1
      funext a
      refine Fin.ext ?_
      match a with
      | ⟨0, _⟩ =>
        show (sd.start (ix2 e f') idx 0 + sd.window (ix2 e f') 0).toNat = n.val
        rw [hs0, hw0, h0]; omega
      | ⟨1, _⟩ =>
        show (sd.start (ix2 e f') idx 1 + sd.window (ix2 e f') 1).toNat = f.val
        rw [hs1, hw1, h1]; omega
  · rename_i hnot
    constructor
    · intro he; cases he
    · rintro ⟨h0, h1⟩
      exfalso
      apply hnot
      intro a
      match a with
      | ⟨0, _⟩ =>
        show 0 ≤ sd.start (ix2 e f') idx 0 + sd.window (ix2 e f') 0 ∧ sd.start (ix2 e f') idx 0 + sd.window (ix2 e f') 0 < (20000 : Nat)
        rw [hs0, hw0, h0]; omega
      | ⟨1, _⟩ =>
        show 0 ≤ sd.start (ix2 e f') idx 1 + sd.window (ix2 e f') 1 ∧ sd.start (ix2 e f') idx 1 + sd.window (ix2 e f') 1 < (128 : Nat)
        rw [hs1, hw1]; omega

/-- A word reads signed as a node number `n` exactly when it is the word `n`: node numbers are below `2 ^ 31`. -/
theorem toInt_eq_iff (v : BitVec 32) (n : Nat) (hn : n < 20000) : v.toInt = (n : Int) ↔ v = BitVec.ofNat 32 n := by
  have hv := v.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega)]
    rw [if_pos (by omega)]

/-- A word that is a node number has its sign bit clear: read signed it is itself. -/
theorem toInt_toNat_of_lt (v : BitVec 32) (hv : v.toNat < 20000) : v.toInt.toNat = v.toNat := by
  rw [BitVec.toInt_eq_toNat_of_lt (by omega)]; rfl

/-- The wrap of a negative index leaves a node number alone. -/
theorem wrap_of_lt (v : BitVec 32) (hv : v.toNat < 20000) :
    Scalar.select (IntOp.cmpi .slt v 0#32) (IntOp.addi v 20000#32) v = v := by
  have hs : v.slt 0#32 = false := by
    rw [BitVec.slt_zero_eq_msb, BitVec.msb_eq_decide]
    exact decide_eq_false (by omega)
  have hc : IntOp.cmpi .slt v 0#32 = 0#1 := by
    show BitVec.ofBool (v.slt 0#32) = 0#1
    rw [hs]; rfl
  rw [hc]
  exact select_zero _ _

/-- The dot_general's operand indices at `(n, f)`. -/
theorem lidx_ix2 (n : Fin 20000) (f : Fin 128) (k : Fin 256) : lidx_main_v0 (ix2 n f) k = ix2 n k := by
  funext a; match a with | ⟨0, _⟩ => rfl | ⟨1, _⟩ => rfl
theorem ridx_ix2 (n : Fin 20000) (f : Fin 128) (k : Fin 256) : ridx_main_v0 (ix2 n f) k = ix2 k f := by
  funext a; match a with | ⟨0, _⟩ => rfl | ⟨1, _⟩ => rfl

/-- The dot_general is the linear layer. -/
theorem v0_eq (x0 : (⟨S20000x256, .f32⟩ : BufTy).Contents (Elt Ideal)) (x2 : (⟨S256x128, .f32⟩ : BufTy).Contents (Elt Ideal))
    (n : Fin 20000) (f : Fin 128) :
    val_main_v0 (F := Ideal) x0 x2 (ix2 n f) = Cert.GraphConv.lin x0 x2 n f := by
  rw [val_main_v0_apply]
  unfold Cert.GraphConv.lin
  refine Finset.sum_congr rfl fun k _ => ?_
  rw [lidx_ix2, ridx_ix2]

/-- The scatter's index of edge `e` is the edge list's destination word. -/
theorem row_word (x1 : (⟨S2x640000, .i32⟩ : BufTy).Contents (Elt Ideal)) (e : Fin 640000) :
    val_main_v13 (F := Ideal) x1 (ix2 e (0 : Fin 1)) = x1 (ix2 (0 : Fin 2) e) := by
  rw [val_main_v13_apply, val_main_v2_apply, val_main_v1_apply]
  congr 1
  funext a
  refine Fin.ext ?_
  match a with
  | ⟨0, _⟩ => rfl
  | ⟨1, _⟩ => exact Nat.mod_eq_of_lt e.isLt

/-- The source row before the wrap is the edge list's source word. -/
theorem v4_word (x1 : (⟨S2x640000, .i32⟩ : BufTy).Contents (Elt Ideal)) (e : Fin 640000) :
    val_main_v4 (F := Ideal) x1 (ix1 e) = x1 (ix2 (1 : Fin 2) e) := by
  rw [val_main_v4_apply, val_main_v3_apply]
  congr 1
  funext a
  refine Fin.ext ?_
  match a with
  | ⟨0, _⟩ => rfl
  | ⟨1, _⟩ => exact Nat.mod_eq_of_lt e.isLt

/-- The gather's start index of edge `e` is the edge list's source word, when that is a node. -/
theorem col_word (x1 : (⟨S2x640000, .i32⟩ : BufTy).Contents (Elt Ideal)) (h : Cert.GraphConv.SrcInRange x1) (e : Fin 640000) :
    val_main_v10 (F := Ideal) x1 (ix2 e (0 : Fin 1)) = x1 (ix2 (1 : Fin 2) e) := by
  have hi : idx_main_v10 (ix2 e (0 : Fin 1)) = ix1 e := by
    funext a; match a with | ⟨0, _⟩ => rfl
  rw [val_main_v10_apply, hi, val_main_v9_apply, val_main_v6_apply, val_main_v8_apply, v4_word,
    val_main_v5_apply, val_main_c_apply, val_main_v7_apply, val_main_c_0_apply]
  exact wrap_of_lt _ (h e)

/-- The gathered row of edge `e` is the linear layer's row at the edge's source. -/
theorem v11_eq (x0 : (⟨S20000x256, .f32⟩ : BufTy).Contents (Elt Ideal)) (x1 : (⟨S2x640000, .i32⟩ : BufTy).Contents (Elt Ideal))
    (x2 : (⟨S256x128, .f32⟩ : BufTy).Contents (Elt Ideal)) (h : Cert.GraphConv.SrcInRange x1) (e : Fin 640000) (f : Fin 128) :
    val_main_v11 (F := Ideal) x0 x1 x2 (ix2 e f) = Cert.GraphConv.lin x0 x2 (Cert.GraphConv.srcNode x1 e) f := by
  have hn : (⟨min (val_main_v10 (F := Ideal) x1 (ix2 e (0 : Fin 1))).toInt.toNat 19999, by omega⟩ : Fin 20000)
      = Cert.GraphConv.srcNode x1 e := by
    refine Fin.ext ?_
    show min (val_main_v10 (F := Ideal) x1 (ix2 e (0 : Fin 1))).toInt.toNat 19999 = min (x1 (ix2 (1 : Fin 2) e)).toNat 19999
    rw [col_word x1 h, toInt_toNat_of_lt _ (h e)]
  unfold val_main_v11
  rw [gather_apply, hn, v0_eq]

/-- The scatter starts from zeros. -/
theorem v12_zero (i : S20000x128.Idx) : val_main_v12 (F := Ideal) i = 0 := by
  rw [val_main_v12_apply, val_main_cst_apply]
  exact Ideal.ofBits_zero_f32

/-- The accumulating scatter read at `(n, f)`: the operand there plus, over the edges whose scatter index reads `n`,
    the update's column `f`. -/
theorem scatter_apply {w : Nat} (x : S20000x128.Idx → EReal) (idx : IVec S640000x1 w) (upd : S640000x128.Idx → EReal)
    (n : Fin 20000) (f : Fin 128) :
    Ideal.hostScatterAdd sd x idx upd (ix2 n f)
      = x (ix2 n f) + ∑ e : Fin 640000, if (idx (ix2 e (0 : Fin 1))).toInt = (n.val : Int) then upd (ix2 e f) else 0 := by
  unfold Ideal.hostScatterAdd
  rw [Finset.sum_filter, sum_idx2]
  refine congrArg (fun t => x (ix2 n f) + t) (Finset.sum_congr rfl fun e _ => ?_)
  simp only [resultIdx_eq_some_iff]
  by_cases hA : (idx (ix2 e (0 : Fin 1))).toInt = (n.val : Int)
  · simp only [hA, true_and, if_true]
    rw [Finset.sum_ite_eq' Finset.univ f, if_pos (Finset.mem_univ f)]
  · simp only [hA, false_and, if_false]
    exact Finset.sum_const_zero
/-- The reference's scatter is the ideal accumulating scatter of the gathered rows at the destination words into zeros. -/
theorem v14_unfold (x0 : (⟨S20000x256, .f32⟩ : BufTy).Contents (Elt Ideal)) (x1 : (⟨S2x640000, .i32⟩ : BufTy).Contents (Elt Ideal))
    (x2 : (⟨S256x128, .f32⟩ : BufTy).Contents (Elt Ideal)) :
    val_main_v14 (F := Ideal) x0 x1 x2
      = Ideal.hostScatterAdd sd (val_main_v12 (F := Ideal)) (val_main_v13 (F := Ideal) x1) (val_main_v11 (F := Ideal) x0 x1 x2) := rfl
/-- The accumulating scatter is the aggregation: at `(n, f)` the zero it starts from plus the gathered rows of the edges
    whose destination word is `n`. -/
theorem v14_eq (x0 : (⟨S20000x256, .f32⟩ : BufTy).Contents (Elt Ideal)) (x1 : (⟨S2x640000, .i32⟩ : BufTy).Contents (Elt Ideal))
    (x2 : (⟨S256x128, .f32⟩ : BufTy).Contents (Elt Ideal)) (h : Cert.GraphConv.SrcInRange x1) (n : Fin 20000) (f : Fin 128) :
    val_main_v14 (F := Ideal) x0 x1 x2 (ix2 n f) = Cert.GraphConv.agg x0 x1 x2 n f := by
  rw [v14_unfold, scatter_apply, v12_zero, zero_add]
  unfold Cert.GraphConv.agg
  refine Finset.sum_congr rfl fun e _ => ?_
  rw [row_word, v11_eq x0 x1 x2 h]
  simp only [toInt_eq_iff _ _ n.isLt]

/-- The reference's result, as a function of the four argument arrays, is the layer of the specification, when every
    source word is a node. -/
theorem ref_eq (x0 : (⟨S20000x256, .f32⟩ : BufTy).Contents (Elt Ideal)) (x1 : (⟨S2x640000, .i32⟩ : BufTy).Contents (Elt Ideal))
    (x2 : (⟨S256x128, .f32⟩ : BufTy).Contents (Elt Ideal)) (x3 : (⟨S128, .f32⟩ : BufTy).Contents (Elt Ideal))
    (h : Cert.GraphConv.SrcInRange x1) :
    val_main_v18 (F := Ideal) x0 x1 x2 x3 = Cert.GraphConv.layer x0 x1 x2 x3 := by
  funext i
  obtain ⟨n, f, rfl⟩ : ∃ (n : Fin 20000) (f : Fin 128), i = ix2 n f := ⟨i 0, i 1, eq_ix2 i⟩
  have hb : idx_main_v15 (idx_main_v16 (ix2 n f)) = ix1 f := by
    funext a; match a with | ⟨0, _⟩ => rfl
  rw [val_main_v18_apply, val_main_v17_apply, val_main_call0_v0_apply, val_main_call0_cst_apply, val_main_v16_apply,
    val_main_v15_apply, hb, v14_eq x0 x1 x2 h]
  show max (Cert.GraphConv.agg x0 x1 x2 n f + x3 (ix1 f)) (Ideal.ofBits .f32 0x00000000#32)
    = max (Cert.GraphConv.agg x0 x1 x2 n f + x3 (ix1 f)) 0
  rw [Ideal.ofBits_zero_f32]

end Cert.ReferenceIdeal.RefValue

end
-- ==== Proof.PreDecode.lean ====
/-
  The precondition, read: its last conjunct says that every source word (row 1 of the edge list), read as a signed
  integer, lies in [0, 20000) — hence, read as a natural number, is below 20000.
-/
import proofs.«426135_j59957743452553_2_alg».proof.Proof.Spec
import proofs.«426135_j59957743452553_2_alg».proof.Pre_finite_inputs
import Idealize.ShloMosaic.Lib.StableHlo.Predicate
import Idealize.ShloMosaic.Lib.ReduceAll
import Idealize.ShloMosaic.Lib.ValueLayout

noncomputable section

open scoped BigOperators

namespace Cert.Proof.PreDecode

open Idealize.ShloMosaic Idealize.ShloMosaic.ValueIdx Cert.Pre_finite_inputs

/-- The rank-zero shape has exactly one index. -/
instance : Subsingleton S_.Idx := ⟨fun a b => funext fun d => d.elim0⟩

/-- Row 1 of the edge list, cut out and flattened, reads at `e` the word at `(1, e)`. -/
theorem col_apply [Cert.Pre_finite_inputs.Facts] (a1 : IVec S2x640000 32) (e : Fin 640000) :
    shapeCast S640000 (extractStridedSlice S1x640000 ![1, 0] a1 Facts.slices_S2x640000_S1x640000_1_0)
      Facts.shapeCasts_S1x640000_S640000 (ix1 e) = a1 (ix2 (1 : Fin 2) e) := by
  rw [shapeCast_1a_a_apply]
  exact slice2_axis0_apply 1 a1 _ (0 : Fin 1) e (1 : Fin 2) rfl

/-- A 32-bit word that reads, signed, in `[0, 20000)` reads, unsigned, below 20000. -/
theorem toNat_lt_of_toInt (w : BitVec 32) (h0 : (0 : Int) ≤ w.toInt) (h1 : w.toInt < 20000) : w.toNat < 20000 := by
  have := w.isLt
  rw [BitVec.toInt_eq_toNat_cond] at h0 h1
  split at h0 <;> omega

/-- If the printed precondition is all ones on the four arrays, every source word is a node. -/
theorem srcInRange_of_fn {F : FTy → Type} [FloatOps F] [Cert.Pre_finite_inputs.Facts]
    (a0 : FVec F S20000x256 .f32) (a1 : IVec S2x640000 32) (a2 : FVec F S256x128 .f32) (a3 : FVec F S128 .f32)
    (h : Cert.Pre_finite_inputs.fn (F := F) a0 a1 a2 a3 = fun _ => 1#1) : Cert.GraphConv.SrcInRange a1 := by
  intro e
  have h0 := congrFun h ValueIdx.ix0
  dsimp only [fn, fn_part1] at h0
  obtain ⟨-, h1⟩ := IntOp.andi_eq_one.1 h0
  have h2 := Host.reduce_andi_all _ _ _ _ _ h1 (ix1 e)
  obtain ⟨hge, hlt⟩ := IntOp.andi_eq_one.1 h2
  have hge' := IntOp.cmpi_sge.1 hge
  have hlt' := IntOp.cmpi_slt.1 hlt
  rw [col_apply] at hge' hlt'
  have h0' : (0#32 : BitVec 32).toInt ≤ (a1 (ix2 (1 : Fin 2) e)).toInt := hge'
  have h1' : (a1 (ix2 (1 : Fin 2) e)).toInt < (20000#32 : BitVec 32).toInt := hlt'
  have hz : (0#32 : BitVec 32).toInt = 0 := by decide
  have hk : (20000#32 : BitVec 32).toInt = 20000 := by decide
  rw [hz] at h0'
  rw [hk] at h1'
  exact toNat_lt_of_toInt _ h0' h1'

end Cert.Proof.PreDecode

end
-- ==== Proof.lean ====
/-
  The certificate of the graph-convolution layer: relu (bias + Σ over edges into a node of (x · W) at the edge's source).

  The kernel program computes the linear layer block by block, gathers and scatters with one-hot matrix products over
  two cores, and combines on the host; the reference multiplies, gathers by index, sums by segment and rectifies. Over the
  extended reals both are the function `Cert.GraphConv.layer` of the four argument arrays, PROVIDED every source word of
  the edge list names a node — the precondition's last conjunct, the domain on which the reference's own indexing is in
  range. Destination words need no assumption: a destination naming no node contributes to no row on either side.

  The three frames are the generated frame proofs (the reference's is its generated run with the result dropped); the
  idealization rewrote nothing, so `preserves` is trivial; `algebraic` puts the kernel program's run (read in KValue.lean)
  beside the reference's (Ref.lean) on arrays that agree.
-/
import proofs.«426135_j59957743452553_2_alg».proof.Defs
import proofs.«426135_j59957743452553_2_alg».proof.Proof.Gen.Kernel
import proofs.«426135_j59957743452553_2_alg».proof.Proof.Gen.Kernel.Skeleton
import proofs.«426135_j59957743452553_2_alg».proof.Proof.Gen.Kernel.Loops
import proofs.«426135_j59957743452553_2_alg».proof.Proof.Gen.Kernel.Launch
import proofs.«426135_j59957743452553_2_alg».proof.Proof.Gen.Kernel.Points
import proofs.«426135_j59957743452553_2_alg».proof.Proof.Gen.Kernel.Frame
import proofs.«426135_j59957743452553_2_alg».proof.Proof.Gen.KernelIdeal
import proofs.«426135_j59957743452553_2_alg».proof.Proof.Gen.KernelIdeal.Skeleton
import proofs.«426135_j59957743452553_2_alg».proof.Proof.Gen.KernelIdeal.Loops
import proofs.«426135_j59957743452553_2_alg».proof.Proof.Gen.KernelIdeal.Launch
import proofs.«426135_j59957743452553_2_alg».proof.Proof.Gen.KernelIdeal.Points
import proofs.«426135_j59957743452553_2_alg».proof.Proof.Gen.KernelIdeal.Frame
import proofs.«426135_j59957743452553_2_alg».proof.Proof.Gen.ReferenceIdeal
import proofs.«426135_j59957743452553_2_alg».proof.Proof.Gen.ReferenceIdeal.Run
import proofs.«426135_j59957743452553_2_alg».proof.Proof.Gen.ReferenceIdeal.Read
import proofs.«426135_j59957743452553_2_alg».proof.Proof.Gen.Pre_finite_inputs
import proofs.«426135_j59957743452553_2_alg».proof.Proof.KValue
import proofs.«426135_j59957743452553_2_alg».proof.Proof.Ref
import proofs.«426135_j59957743452553_2_alg».proof.Proof.PreDecode
import Idealize.ShloMosaic.Adequacy
import Idealize.ShloMosaic.Init

noncomputable section

namespace Cert.Proof

open Idealize.ShloMosaic Idealize.ShloMosaic.TcCoe Idealize.SL.Sem

section Claims
variable [hPre : Cert.Pre_finite_inputs.Facts]

theorem frame_k : Cert.frame_Kernel (hKernel := Cert.Kernel.Gen.facts) := fun m ρ _ => Cert.Kernel.Gen.frame m ρ

theorem frame_ki : Cert.frame_KernelIdeal (hKernelIdeal := Cert.KernelIdeal.Gen.facts) := fun m ρ _ => Cert.KernelIdeal.Gen.frame m ρ

theorem frame_ri : Cert.frame_ReferenceIdeal (hReferenceIdeal := Cert.ReferenceIdeal.Gen.facts) := fun m ρ _ =>
  (θ_run Cert.ReferenceIdeal.defs _ _).mono (fun _ h c => (h c).2) (Cert.ReferenceIdeal.Value.run (F := Ideal) m ρ)

/-- Both idealized programs end at the layer of the argument arrays: the kernel program by its run, the reference by its
    run, under the precondition's reading that every source word is a node. -/
theorem algebraic :
    Cert.algebraic_KernelIdeal_ReferenceIdeal (hKernelIdeal := Cert.KernelIdeal.Gen.facts) (hReferenceIdeal := Cert.ReferenceIdeal.Gen.facts) := by
  intro m ρ m' ρ' hpre hagree
  have hsrc : ∀ c : Dev Cert.KernelIdeal.nD, Cert.GraphConv.SrcInRange (Cert.KernelIdeal.Lin.eiOf m c) :=
    fun c => Cert.Proof.PreDecode.srcInRange_of_fn _ _ _ _ (hpre c)
  refine ⟨_, Cert.KernelIdeal.Value.run m ρ hsrc, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v18_eq _ _ _ _).trans
    (Cert.ReferenceIdeal.RefValue.ref_eq _ _ _ _ (hsrc c))

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
